-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2 : Shape := ⟨2, ![16384, 2]⟩
abbrev S16384 : Shape := ⟨1, ![16384]⟩
abbrev S_ : Shape := ⟨0, ![]⟩

class Facts : Prop where
  bcast_S_S16384x2 : S_.BroadcastsInDim S16384x2 (![] : Fin 0 → Fin S16384x2.rank)
  reducesTo_S16384x2_S_d0_1 : S16384x2.ReducesTo [0, 1] S_
  h_S_ : 0 < S_.numel

variable [Facts]

def fn {F : FTy → Type} [FloatOps F] (main_arg0 : FVec F S16384x2 .f32) (main_arg1 : IVec S16384 32) : IVec S_ 1 :=
  let main_v0 : FVec F S16384x2 .f32 := Host.absf main_arg0
  let main_cst : FVec F S_ .f32 := constant S_ .f32 0x7F800000#32
  let main_v1 : FVec F S16384x2 .f32 := broadcastInDim S16384x2 ![] bcast_S_S16384x2 main_cst
  let main_v2 : IVec S16384x2 1 := cmpf .olt main_v0 main_v1
  let main_c : IVec S_ 1 := constantI S_ 1 1#1
  let main_v3 : IVec S_ 1 := (fun x v => Host.reduce IntOp.andi x v reducesTo_S16384x2_S_d0_1 h_S_) main_v2 main_c
  main_v3
-- ==== Kernel.lean ====
abbrev S16384x2 : Shape := ⟨2, ![16384, 2]⟩
abbrev S16384 : Shape := ⟨1, ![16384]⟩
abbrev S_ : Shape := ⟨0, ![]⟩
abbrev S16384x1 : Shape := ⟨2, ![16384, 1]⟩
abbrev S1x16384 : Shape := ⟨2, ![1, 16384]⟩
abbrev S1x1 : Shape := ⟨2, ![1, 1]⟩
abbrev S1x1024 : Shape := ⟨2, ![1, 1024]⟩
abbrev S1024x1 : Shape := ⟨2, ![1024, 1]⟩
abbrev S1024x1024 : Shape := ⟨2, ![1024, 1024]⟩
abbrev S1024 : Shape := ⟨1, ![1024]⟩
abbrev S1 : Shape := ⟨1, ![1]⟩

abbrev nBuf : Space → Nat
  | .hbm => 36
  | .vmem => 10
  | .smem => 0
  | _ => 0

abbrev bufTy : (tb : Table) → Fin (tcTables nBuf tb) → BufTy
  | .hbm, ⟨0, _⟩ => ⟨S16384x2, .f32⟩
  | .hbm, ⟨1, _⟩ => ⟨S16384, .i32⟩
  | .hbm, ⟨2, _⟩ => ⟨S_, .f32⟩
  | .hbm, ⟨3, _⟩ => ⟨S16384, .f32⟩
  | .hbm, ⟨4, _⟩ => ⟨S_, .f32⟩
  | .hbm, ⟨5, _⟩ => ⟨S16384, .f32⟩
  | .hbm, ⟨6, _⟩ => ⟨S16384, .f32⟩
  | .hbm, ⟨7, _⟩ => ⟨S16384x1, .f32⟩
  | .hbm, ⟨8, _⟩ => ⟨S16384x2, .f32⟩
  | .hbm, ⟨9, _⟩ => ⟨S16384x2, .f32⟩
  | .hbm, ⟨10, _⟩ => ⟨S16384x2, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S16384x2, .f32⟩
  | .hbm, ⟨15, _⟩ => ⟨S16384x2, .f32⟩
  | .hbm, ⟨16, _⟩ => ⟨S16384x1, .f32⟩
  | .hbm, ⟨17, _⟩ => ⟨S16384, .f32⟩
  | .hbm, ⟨18, _⟩ => ⟨S_, .i32⟩
  | .hbm, ⟨19, _⟩ => ⟨S16384, .i32⟩
  | .hbm, ⟨20, _⟩ => ⟨S16384, .i1⟩
  | .hbm, ⟨21, _⟩ => ⟨S16384, .f32⟩
  | .hbm, ⟨22, _⟩ => ⟨S_, .i32⟩
  | .hbm, ⟨23, _⟩ => ⟨S16384, .i32⟩
  | .hbm, ⟨24, _⟩ => ⟨S16384, .i1⟩
  | .hbm, ⟨25, _⟩ => ⟨S16384, .f32⟩
  | .hbm, ⟨26, _⟩ => ⟨S1x16384, .f32⟩
  | .hbm, ⟨27, _⟩ => ⟨S1x16384, .f32⟩
  | .hbm, ⟨28, _⟩ => ⟨S1x16384, .f32⟩
  | .hbm, ⟨29, _⟩ => ⟨S1x1, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1, .f32⟩
  | .local _ .vmem, ⟨9, _⟩ => ⟨S1x1, .f32⟩
  | _, _ => ⟨S16384x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg0 : BitVec 32 := BitVec.ofNat 32 (i 0).val
  let c15_i32 : BitVec 32 := 15#32
  let v35 : BitVec 1 := Scalar.cmpi .eq arg0 c15_i32
  let arg1 : BitVec 32 := BitVec.ofNat 32 (i 1).val
  let c15_i32_16 : BitVec 32 := 15#32
  let v36 : BitVec 1 := Scalar.cmpi .eq arg1 c15_i32_16
  let v37 : BitVec 1 := Scalar.andi v35 v36
  let v38 : BitVec 32 := Scalar.extui v37
  let c0_i32_17 : BitVec 32 := 0#32
  let v39 : BitVec 1 := Scalar.cmpi .ne v38 c0_i32_17
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  reducesTo_S16384x2_S16384_d1 : S16384x2.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x2_0_1 : S16384x1.BroadcastsInDim S16384x2 (![0, 1] : Fin 2 → Fin S16384x2.rank)
  slices_S16384x2_S16384x1_0_1 : S16384x2.Slices ![0, 1] S16384x1
  shapeCasts_S16384x1_S16384 : S16384x1.ShapeCasts S16384
  shapeCasts_S16384_S1x16384 : S16384.ShapeCasts S1x16384
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  transposes_S1x1024_p1_0_S1024x1 : S1x1024.Transposes [1, 0] S1024x1
  broadcasts_S1x1024_S1024x1024 : S1x1024.Broadcasts S1024x1024
  broadcasts_S1024x1_S1024x1024 : S1024x1.Broadcasts S1024x1024
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  reducesTo_S16384_S_d0 : S16384.ReducesTo [0] S_
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x16384.size a
  hwx0_0 : ∀ i : grid0.Coords, EltTy.bits .f32 = 32 ∨ (Rect.block (s := S1x16384) S1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x16384.size a
  hwx0_1 : ∀ i : grid0.Coords, EltTy.bits .f32 = 32 ∨ (Rect.block (s := S1x16384) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x16384.size a
  hwx0_2 : ∀ i : grid0.Coords, EltTy.bits .f32 = 32 ∨ (Rect.block (s := S1x16384) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x16384.size a
  hwx0_3 : ∀ i : grid0.Coords, EltTy.bits .f32 = 32 ∨ (Rect.block (s := S1x16384) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_v19) S1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x2 : Shape := ⟨2, ![16384, 2]⟩
abbrev S16384 : Shape := ⟨1, ![16384]⟩
abbrev S_ : Shape := ⟨0, ![]⟩
abbrev S16384x1 : Shape := ⟨2, ![16384, 1]⟩
abbrev S1x16384 : Shape := ⟨2, ![1, 16384]⟩
abbrev S16384x16384 : Shape := ⟨2, ![16384, 16384]⟩

abbrev nBuf : Space → Nat
  | .hbm => 50
  | .vmem => 0
  | .smem => 0
  | _ => 0

abbrev bufTy : (tb : Table) → Fin (tcTables nBuf tb) → BufTy
  | .hbm, ⟨0, _⟩ => ⟨S16384x2, .f32⟩
  | .hbm, ⟨1, _⟩ => ⟨S16384, .i32⟩
  | .hbm, ⟨2, _⟩ => ⟨S_, .f32⟩
  | .hbm, ⟨3, _⟩ => ⟨S16384, .f32⟩
  | .hbm, ⟨4, _⟩ => ⟨S_, .f32⟩
  | .hbm, ⟨5, _⟩ => ⟨S16384, .f32⟩
  | .hbm, ⟨6, _⟩ => ⟨S16384, .f32⟩
  | .hbm, ⟨7, _⟩ => ⟨S16384x1, .f32⟩
  | .hbm, ⟨8, _⟩ => ⟨S16384x2, .f32⟩
  | .hbm, ⟨9, _⟩ => ⟨S16384x2, .f32⟩
  | .hbm, ⟨10, _⟩ => ⟨S16384x2, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S16384x2, .f32⟩
  | .hbm, ⟨15, _⟩ => ⟨S16384x2, .f32⟩
  | .hbm, ⟨16, _⟩ => ⟨S16384x1, .f32⟩
  | .hbm, ⟨17, _⟩ => ⟨S16384, .f32⟩
  | .hbm, ⟨18, _⟩ => ⟨S_, .i32⟩
  | .hbm, ⟨19, _⟩ => ⟨S16384, .i32⟩
  | .hbm, ⟨20, _⟩ => ⟨S16384, .i1⟩
  | .hbm, ⟨21, _⟩ => ⟨S16384, .f32⟩
  | .hbm, ⟨22, _⟩ => ⟨S_, .i32⟩
  | .hbm, ⟨23, _⟩ => ⟨S16384, .i32⟩
  | .hbm, ⟨24, _⟩ => ⟨S16384, .i1⟩
  | .hbm, ⟨25, _⟩ => ⟨S16384, .f32⟩
  | .hbm, ⟨26, _⟩ => ⟨S1x16384, .f32⟩
  | .hbm, ⟨27, _⟩ => ⟨S16384x1, .f32⟩
  | .hbm, ⟨28, _⟩ => ⟨S16384x16384, .f32⟩
  | .hbm, ⟨29, _⟩ => ⟨S16384x16384, .f32⟩
  | .hbm, ⟨30, _⟩ => ⟨S16384x16384, .f32⟩
  | .hbm, ⟨31, _⟩ => ⟨S_, .f32⟩
  | .hbm, ⟨32, _⟩ => ⟨S16384x16384, .f32⟩
  | .hbm, ⟨33, _⟩ => ⟨S16384x16384, .f32⟩
  | .hbm, ⟨34, _⟩ => ⟨S_, .f32⟩
  | .hbm, ⟨35, _⟩ => ⟨S16384x16384, .f32⟩
  | .hbm, ⟨36, _⟩ => ⟨S16384x16384, .f32⟩
  | .hbm, ⟨37, _⟩ => ⟨S16384x1, .f32⟩
  | .hbm, ⟨38, _⟩ => ⟨S1x16384, .f32⟩
  | .hbm, ⟨39, _⟩ => ⟨S16384x16384, .f32⟩
  | .hbm, ⟨40, _⟩ => ⟨S16384x16384, .f32⟩
  | .hbm, ⟨41, _⟩ => ⟨S16384x16384, .f32⟩
  | .hbm, ⟨42, _⟩ => ⟨S16384x16384, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | _, _ => ⟨S16384x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_call0_cst : Ref sig .tc := ⟨.hbm, 34, rfl⟩
abbrev main_call0_v0 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  reducesTo_S16384x2_S16384_d1 : S16384x2.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x2_0_1 : S16384x1.BroadcastsInDim S16384x2 (![0, 1] : Fin 2 → Fin S16384x2.rank)
  slices_S16384x2_S16384x1_0_1 : S16384x2.Slices ![0, 1] S16384x1
  shapeCasts_S16384x1_S16384 : S16384x1.ShapeCasts S16384
  bcast_S16384_S1x16384_1 : S16384.BroadcastsInDim S1x16384 (![1] : Fin 1 → Fin S1x16384.rank)
  bcast_S1x16384_S16384x16384_0_1 : S1x16384.BroadcastsInDim S16384x16384 (![0, 1] : Fin 2 → Fin S16384x16384.rank)
  bcast_S16384x1_S16384x16384_0_1 : S16384x1.BroadcastsInDim S16384x16384 (![0, 1] : Fin 2 → Fin S16384x16384.rank)
  bcast_S_S16384x16384 : S_.BroadcastsInDim S16384x16384 (![] : Fin 0 → Fin S16384x16384.rank)
  reducesTo_S16384x16384_S_d0_1 : S16384x16384.ReducesTo [0, 1] S_
  reducesTo_S16384_S_d0 : S16384.ReducesTo [0] S_

variable [Facts₀]

class Facts : Prop extends Facts₀ where

variable [Facts]
-- ==== Proof.Bits.Setup.lean ====
/-
  The pair-sum region of the kernel program, set up for its frame: what core `c`'s buffers hold when the region is
  entered (the host operations before it have run: the class-1 probabilities and the two 0/1 masks, each reshaped to one
  row of 16384), @main as "earlier host lines, the region, later host lines", each window's block at a grid point, the
  two branch conditions of the body in closed form over the 16 x 16 grid (the accumulator is reset at the first point
  only and copied to the output at the last point only), and where the output window is idle.
-/
import proofs.«103627_j80530636800492_1_alg».proof.Proof.Gen.Kernel.Launch
import proofs.«103627_j80530636800492_1_alg».proof.Proof.Gen.Kernel.Skeleton
import proofs.«103627_j80530636800492_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the later host lines, at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two branch conditions over the grid -/

/-- The accumulator is reset: both grid coordinates are zero. -/
abbrev condFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- That is the first of the 256 points. -/
theorem hcondFirst : ∀ t : Fin cfg0.N, condFirst (grid0.coords t) ↔ t.val % 256 = 0 :=
  (by decide +kernel : ∀ t : Fin grid0.N, condFirst (grid0.coords t) ↔ t.val % 256 = 0)

/-- The accumulator is copied to the output: both grid coordinates are 15. -/
abbrev condLast (i : grid0.Coords) : Prop := k0_cond2 i = 1#1
/-- That is the last of the 256 points. -/
theorem hcondLast : ∀ t : Fin cfg0.N, condLast (grid0.coords t) ↔ t.val % 256 = 255 :=
  (by decide +kernel : ∀ t : Fin grid0.N, condLast (grid0.coords t) ↔ t.val % 256 = 255)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Away from the last point the body stores nothing into the output window, -/
theorem idle4 : ∀ t : Fin cfg0.N, ¬condLast (grid0.coords t) → cfg0.idle 4 (grid0.coords t) = true := by decide +kernel
/-- and the pipeline does not write its block back there; -/
theorem noFlush4 : ∀ t : Fin cfg0.N, ¬condLast (grid0.coords t) → (cfg0.win 4).flush t = false := by decide +kernel
/-- at the last point the body stores into it. -/
theorem live4 : ∀ t : Fin cfg0.N, condLast (grid0.coords t) → cfg0.idle 4 (grid0.coords t) = false := by decide +kernel

/-! ## The staging memrefs the body is called with -/

abbrev VO4 : View sig .tc .vmem S1x1 .f32 := (Memref.whole cc0_stg4_0 : Memref sig .tc .vmem S1x1 .f32).view
abbrev ms0 (t : Fin cfg0.N) : Memref sig .tc .vmem S1x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
/-- The accumulator: a whole scoped buffer of the kernel's own, passed beside the windows. -/
abbrev scM : Memref sig .tc .vmem S1x1 .f32 := Memref.whole cc0_scratch0
abbrev VS : View sig .tc .vmem S1x1 .f32 := scM.view

/-- The scoped buffers no window stages are the accumulator, owned at some contents. -/
theorem scopedRest_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.Kernel.Region

end
-- ==== Proof.Bits.BodyMiddle.lean ====
/-
  The body at a grid point that is neither the first nor the last: the accumulator is not reset and the output window is
  not touched. The run finds what the accumulator holds afterwards as the pieces the body stored into it.
-/
import proofs.«103627_j80530636800492_1_alg».proof.Proof.Bits.Setup

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a middle point, on whole staging memrefs — the four input blocks at their contents, the output's buffer at
    contents handed back untouched, the accumulator at what the point before left — the body runs to the continuation
    holding the inputs as they were and the accumulator with its pieces written. -/
noncomputable def bodyMiddle (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : ¬condLast i)
    (x0 x1 x2 x3 : Vec F S1x1024 .f32) (xs : Vec F S1x1 .f32) :
    Σ' (L4 : List (View.Piece (Elt F) S1x1 .f32)), { LS : List (View.Piece (Elt F) S1x1 .f32) //
      ∀ (xi4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc0__pair_sum_kernel i arg2 harg2 arg3 harg3 arg4 harg4 arg5 harg5 arg6 harg6 arg7 harg7) K } := by
  refine ⟨[], ?_, fun xi4 E K => ?run⟩
  case run =>
    simp only [cc0__pair_sum_kernel_eq_skeleton]; unfold cc0__pair_sum_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Region

end
-- ==== Proof.Bits.BodyFirst.lean ====
/-
  The body at the first grid point: the accumulator is reset to zero before the tile's sum is added, and the output
  window is not touched. The accumulator may hold anything on entry.
-/
import proofs.«103627_j80530636800492_1_alg».proof.Proof.Bits.BodyMiddle

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At the first point, on whole staging memrefs — the four input blocks at their contents, the output's buffer at
    contents handed back untouched, the accumulator at anything — the body runs to the continuation holding the inputs
    as they were and the accumulator with its pieces written. -/
noncomputable def bodyFirst (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : condFirst i) (hc1 : ¬condLast i)
    (x0 x1 x2 x3 : Vec F S1x1024 .f32) :
    Σ' (L4 : List (View.Piece (Elt F) S1x1 .f32)), { LS : List (View.Piece (Elt F) S1x1 .f32) //
      ∀ (xi4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc0__pair_sum_kernel i arg2 harg2 arg3 harg3 arg4 harg4 arg5 harg5 arg6 harg6 arg7 harg7) K } := by
  refine ⟨[], ?_, fun xi4 E K => ?run⟩
  case run =>
    simp only [cc0__pair_sum_kernel_eq_skeleton]; unfold cc0__pair_sum_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Region

end
-- ==== Proof.Bits.BodyLast.lean ====
/-
  The body at the last grid point: the tile's sum is added to the accumulator, and the accumulator is then copied into
  the output window's buffer, which may hold anything on entry.
-/
import proofs.«103627_j80530636800492_1_alg».proof.Proof.Bits.BodyFirst

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At the last point, on whole staging memrefs — the four input blocks at their contents, the output's buffer at
    anything, the accumulator at what the point before left — the body runs to the continuation holding the inputs as
    they were, the output's buffer with its pieces written and the accumulator with its pieces written. -/
noncomputable def bodyLast (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : condLast i)
    (x0 x1 x2 x3 : Vec F S1x1024 .f32) (xs : Vec F S1x1 .f32) :
    Σ' (L4 : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc0__pair_sum_kernel i arg2 harg2 arg3 harg3 arg4 harg4 arg5 harg5 arg6 harg6 arg7 harg7) K } := by
  refine ⟨?_, ?_, fun E K => ?run⟩
  case run =>
    simp only [cc0__pair_sum_kernel_eq_skeleton]; unfold cc0__pair_sum_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3
    obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.Kernel.Region

end
-- ==== Proof.Bits.RegionData.lean ====
/-
  The proof data of the pair-sum region and its body obligation. After the body at grid point n the accumulator holds
  what the point's case leaves in it: at the first point the tile's sum added to a fresh zero, afterwards the tile's sum
  added to what the point before left; the output window's buffer is written at the last point only (a copy of the
  accumulator) and is idle, handed back untouched, at every other point. The two score windows read one array, so the
  core holds that array as two half shares.
-/
import proofs.«103627_j80530636800492_1_alg».proof.Proof.Bits.BodyLast

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- At the first point nothing is stored into the output's buffer: a placeholder nothing consults (the window is idle there and not written back). -/
def outFirst (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : condFirst i) (hc1 : ¬condLast i)
    (x0 x1 x2 x3 : Vec F S1x1024 .f32) : Vec F S1x1 .f32 :=
  VO4.read (Elt F) (VO4.writes (Elt F) VO4.junk (bodyFirst c i arg2 harg2 arg3 harg3 arg4 harg4 arg5 harg5 arg6 harg6 arg7 harg7 hc0 hc1 x0 x1 x2 x3).1)

/-- The pieces the body stores into the accumulator at the first point cover it (one store of the whole [1,1] buffer last). -/
theorem accCoverFirst (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : condFirst i) (hc1 : ¬condLast i)
    (x0 x1 x2 x3 : Vec F S1x1024 .f32) (y : S1x1.Idx) :
    ∃ pc ∈ (bodyFirst c i arg2 harg2 arg3 harg3 arg4 harg4 arg5 harg5 arg6 harg6 arg7 harg7 hc0 hc1 x0 x1 x2 x3).2.1, y ∈ pc.1.set :=
  View.cover_of_tiledL (bodyFirst c i arg2 harg2 arg3 harg3 arg4 harg4 arg5 harg5 arg6 harg6 arg7 harg7 hc0 hc1 x0 x1 x2 x3).2.1 S1x1.size (by sl_kernel_rfl) y

/-- What the accumulator holds after the body at the first point: its pieces read back. -/
def accFirst (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : condFirst i) (hc1 : ¬condLast i)
    (x0 x1 x2 x3 : Vec F S1x1024 .f32) : Vec F S1x1 .f32 :=
  VS.read (Elt F) (VS.writes (Elt F) VS.junk (bodyFirst c i arg2 harg2 arg3 harg3 arg4 harg4 arg5 harg5 arg6 harg6 arg7 harg7 hc0 hc1 x0 x1 x2 x3).2.1)

/-- At a middle point nothing is stored into the output's buffer: a placeholder nothing consults. -/
def outMiddle (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : ¬condLast i)
    (x0 x1 x2 x3 : Vec F S1x1024 .f32) (xs : Vec F S1x1 .f32) : Vec F S1x1 .f32 :=
  VO4.read (Elt F) (VO4.writes (Elt F) VO4.junk (bodyMiddle c i arg2 harg2 arg3 harg3 arg4 harg4 arg5 harg5 arg6 harg6 arg7 harg7 hc0 hc1 x0 x1 x2 x3 xs).1)

/-- The pieces the body stores into the accumulator at a middle point cover it (one store of the whole [1,1] buffer last). -/
theorem accCoverMiddle (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : ¬condLast i)
    (x0 x1 x2 x3 : Vec F S1x1024 .f32) (xs : Vec F S1x1 .f32) (y : S1x1.Idx) :
    ∃ pc ∈ (bodyMiddle c i arg2 harg2 arg3 harg3 arg4 harg4 arg5 harg5 arg6 harg6 arg7 harg7 hc0 hc1 x0 x1 x2 x3 xs).2.1, y ∈ pc.1.set :=
  View.cover_of_tiledL (bodyMiddle c i arg2 harg2 arg3 harg3 arg4 harg4 arg5 harg5 arg6 harg6 arg7 harg7 hc0 hc1 x0 x1 x2 x3 xs).2.1 S1x1.size (by sl_kernel_rfl) y

/-- What the accumulator holds after the body at a middle point: its pieces read back. -/
def accMiddle (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : ¬condLast i)
    (x0 x1 x2 x3 : Vec F S1x1024 .f32) (xs : Vec F S1x1 .f32) : Vec F S1x1 .f32 :=
  VS.read (Elt F) (VS.writes (Elt F) VS.junk (bodyMiddle c i arg2 harg2 arg3 harg3 arg4 harg4 arg5 harg5 arg6 harg6 arg7 harg7 hc0 hc1 x0 x1 x2 x3 xs).2.1)

/-- The piece the body stores into the output's buffer at the last point covers it. -/
theorem outCoverLast (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : condLast i)
    (x0 x1 x2 x3 : Vec F S1x1024 .f32) (xs : Vec F S1x1 .f32) (y : S1x1.Idx) :
    ∃ pc ∈ (bodyLast c i arg2 harg2 arg3 harg3 arg4 harg4 arg5 harg5 arg6 harg6 arg7 harg7 hc0 hc1 x0 x1 x2 x3 xs).1, y ∈ pc.1.set :=
  View.cover_of_tiledL (bodyLast c i arg2 harg2 arg3 harg3 arg4 harg4 arg5 harg5 arg6 harg6 arg7 harg7 hc0 hc1 x0 x1 x2 x3 xs).1 S1x1.size (by sl_kernel_rfl) y

/-- What the output's buffer holds after the body at the last point: its piece read back. -/
def outLast (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : condLast i)
    (x0 x1 x2 x3 : Vec F S1x1024 .f32) (xs : Vec F S1x1 .f32) : Vec F S1x1 .f32 :=
  VO4.read (Elt F) (VO4.writes (Elt F) VO4.junk (bodyLast c i arg2 harg2 arg3 harg3 arg4 harg4 arg5 harg5 arg6 harg6 arg7 harg7 hc0 hc1 x0 x1 x2 x3 xs).1)

/-- The pieces the body stores into the accumulator at the last point cover it (one store of the whole [1,1] buffer last). -/
theorem accCoverLast (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : condLast i)
    (x0 x1 x2 x3 : Vec F S1x1024 .f32) (xs : Vec F S1x1 .f32) (y : S1x1.Idx) :
    ∃ pc ∈ (bodyLast c i arg2 harg2 arg3 harg3 arg4 harg4 arg5 harg5 arg6 harg6 arg7 harg7 hc0 hc1 x0 x1 x2 x3 xs).2.1, y ∈ pc.1.set :=
  View.cover_of_tiledL (bodyLast c i arg2 harg2 arg3 harg3 arg4 harg4 arg5 harg5 arg6 harg6 arg7 harg7 hc0 hc1 x0 x1 x2 x3 xs).2.1 S1x1.size (by sl_kernel_rfl) y

/-- What the accumulator holds after the body at the last point: its pieces read back. -/
def accLast (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : condLast i)
    (x0 x1 x2 x3 : Vec F S1x1024 .f32) (xs : Vec F S1x1 .f32) : Vec F S1x1 .f32 :=
  VS.read (Elt F) (VS.writes (Elt F) VS.junk (bodyLast c i arg2 harg2 arg3 harg3 arg4 harg4 arg5 harg5 arg6 harg6 arg7 harg7 hc0 hc1 x0 x1 x2 x3 xs).2.1)

/-! ## Point by point -/

/-- What the output's buffer and the accumulator hold after the body at position `n` (a pair), by recursion on the
    point: the case the closed forms select, run on the point's staging memrefs and input blocks, over what the point
    before left in the accumulator. -/
def outsAt (c : Dev nD) : (n : ℕ) → n < cfg0.N → Vec F S1x1 .f32 × Vec F S1x1 .f32
  | 0, hn => (outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩) (iblk m c 2 ⟨0, hn⟩) (iblk m c 3 ⟨0, hn⟩), accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 256 = 0 then
      if h1 : (n + 1) % 256 = 255 then
        False.elim (by omega)
      else
        (outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((hcondFirst ⟨n + 1, hn⟩).mpr h0) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩), accFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((hcondFirst ⟨n + 1, hn⟩).mpr h0) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 256 = 255 then
        (outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2, accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2)
      else
        (outMiddle c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2, accMiddle c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2)

theorem outsAt_first (c : Dev nD) (t : Fin cfg0.N) (h0 : t.val % 256 = 0) (h1 : ¬t.val % 256 = 255) :
    outsAt m c t.val t.isLt = (outFirst c (grid0.coords t) (ms0 t) (hs0 t) (ms1 t) (hs1 t) (ms2 t) (hs2 t) (ms3 t) (hs3 t) (ms4 t) (hs4 t) scM (Memref.isWhole_whole _) ((hcondFirst t).mpr h0) (fun h => h1 ((hcondLast t).mp h)) (iblk m c 0 t) (iblk m c 1 t) (iblk m c 2 t) (iblk m c 3 t), accFirst c (grid0.coords t) (ms0 t) (hs0 t) (ms1 t) (hs1 t) (ms2 t) (hs2 t) (ms3 t) (hs3 t) (ms4 t) (hs4 t) scM (Memref.isWhole_whole _) ((hcondFirst t).mpr h0) (fun h => h1 ((hcondLast t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt_middle (c : Dev nD) (t : Fin cfg0.N) (h0 : ¬t.val % 256 = 0) (h1 : ¬t.val % 256 = 255) :
    outsAt m c t.val t.isLt = (outMiddle c (grid0.coords t) (ms0 t) (hs0 t) (ms1 t) (hs1 t) (ms2 t) (hs2 t) (ms3 t) (hs3 t) (ms4 t) (hs4 t) scM (Memref.isWhole_whole _) (fun h => h0 ((hcondFirst t).mp h)) (fun h => h1 ((hcondLast t).mp h)) (iblk m c 0 t) (iblk m c 1 t) (iblk m c 2 t) (iblk m c 3 t) (outsAt m c (t.val - 1) (Nat.lt_of_le_of_lt (Nat.sub_le _ _) t.isLt)).2, accMiddle c (grid0.coords t) (ms0 t) (hs0 t) (ms1 t) (hs1 t) (ms2 t) (hs2 t) (ms3 t) (hs3 t) (ms4 t) (hs4 t) scM (Memref.isWhole_whole _) (fun h => h0 ((hcondFirst t).mp h)) (fun h => h1 ((hcondLast t).mp h)) (iblk m c 0 t) (iblk m c 1 t) (iblk m c 2 t) (iblk m c 3 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 256 = 0) (h1 : t.val % 256 = 255) :
    outsAt m c t.val t.isLt = (outLast c (grid0.coords t) (ms0 t) (hs0 t) (ms1 t) (hs1 t) (ms2 t) (hs2 t) (ms3 t) (hs3 t) (ms4 t) (hs4 t) scM (Memref.isWhole_whole _) (fun h => h0 ((hcondFirst t).mp h)) ((hcondLast t).mpr h1) (iblk m c 0 t) (iblk m c 1 t) (iblk m c 2 t) (iblk m c 3 t) (outsAt m c (t.val - 1) (Nat.lt_of_le_of_lt (Nat.sub_le _ _) t.isLt)).2, accLast c (grid0.coords t) (ms0 t) (hs0 t) (ms1 t) (hs1 t) (ms2 t) (hs2 t) (ms3 t) (hs3 t) (ms4 t) (hs4 t) scM (Memref.isWhole_whole _) (fun h => h0 ((hcondFirst t).mp h)) ((hcondLast t).mpr h1) (iblk m c 0 t) (iblk m c 1 t) (iblk m c 2 t) (iblk m c 3 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the accumulator holds anything; afterwards what
    the point before left in it. -/
def PhiS (c : Dev nD) : (n : ℕ) → n ≤ cfg0.N → sProp 𝕄
  | 0, _ => Pipeline.scopedRest spec0 c
  | n + 1, hn => owns (c : Thread nD τ) scM fullShare ((outsAt m c n hn).2)

theorem PhiS_zero (c : Dev nD) (n : ℕ) (h : n ≤ cfg0.N) (hz : n = 0) : PhiS m c n h = Pipeline.scopedRest spec0 c := by
  subst hz; rfl

theorem PhiS_succ (c : Dev nD) (n : ℕ) (hn : n < cfg0.N) :
    PhiS m c (n + 1) hn = owns (c : Thread nD τ) scM fullShare ((outsAt m c n hn).2) := rfl

theorem PhiS_pos (c : Dev nD) (n : ℕ) (h : n ≤ cfg0.N) (hz : n ≠ 0) :
    PhiS m c n h = owns (c : Thread nD τ) scM fullShare ((outsAt m c (n - 1) (by omega)).2) := by
  cases n with
  | zero => exact absurd rfl hz
  | succ n => rfl

/-! ## The proof data -/

/-- The arrays as the region finds them; after the body each input's buffer at its block and the output's at
    `outsAt`; the invariant `PhiS`; nothing owed; the array the two score windows share held as two halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q w := match w with
    | ⟨0, _⟩ => fullShare.left
    | ⟨1, _⟩ => fullShare
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

end Cert.Kernel.Region

end
-- ==== Proof.Bits.BodyObligation.lean ====
/-
  The body obligation of the pair-sum region at a generic grid point: the four input buffers hold their blocks; the
  closed forms say whether the point is the first, the last or a middle one; the case's run applies; the invariant
  hands the body the accumulator at what the point before left (at anything before the first point) and takes it back
  at this point's contents; the output's buffer is handed back untouched except at the last point.
-/
import proofs.«103627_j80530636800492_1_alg».proof.Proof.Bits.RegionData

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  by_cases h0 : t.val % 256 = 0
  · by_cases h1 : t.val % 256 = 255
    · exfalso; omega
    · rw [Dat.leavesExact_idle (dats m 0 c) 4 t (idle4 t (fun h => h1 ((hcondLast t).mp h))) (noFlush4 t (fun h => h1 ((hcondLast t).mp h)))]
      rw [outsAt_first m c t h0 h1]
      unfold accFirst; (try dsimp only)
      have hz : t.val = 0 := by omega
      rw [PhiS_castSucc m c t, PhiS_zero m c _ _ hz, scopedRest_eq]
      iintro ⟨HS, Ho, ⟨%d0, H0⟩, ⟨%d1, H1⟩, ⟨%d2, H2⟩, ⟨%d3, H3⟩, ⟨%d4, H4⟩⟩
      iapply ((bodyFirst c (grid0.coords t) _ _ _ _ _ _ _ _ _ _ _ _ ((hcondFirst t).mpr h0) (fun h => h1 ((hcondLast t).mp h)) (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS]
      · unfold owns; iexists _; isplitr
        swap; · iexact HS
        ipureintro; exact View.read_writes_of_cover _ _ _ _ _ (accCoverFirst c _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 256 = 255
    · rw [show (dats m 0 c).leavesExact 4 t = owns (c : Thread nD τ) (ms4 t) fullShare ((dats m 0 c).after 4 t) from by
        unfold Dat.leavesExact; rw [live4 t ((hcondLast t).mpr h1)], after4]
      rw [outsAt_last m c t h0 h1]
      unfold outLast accLast; (try dsimp only)
      rw [PhiS_castSucc m c t, PhiS_pos m c _ _ hz]
      iintro ⟨HS, Ho, ⟨%d0, H0⟩, ⟨%d1, H1⟩, ⟨%d2, H2⟩, ⟨%d3, H3⟩, ⟨%d4, H4⟩⟩
      iapply ((bodyLast c (grid0.coords t) _ _ _ _ _ _ _ _ _ _ _ _ (fun h => h0 ((hcondFirst t).mp h)) ((hcondLast t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS]
      · unfold owns; iexists _; isplitr
        swap; · iexact HS
        ipureintro; exact View.read_writes_of_cover _ _ _ _ _ (accCoverLast c _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (outCoverLast c _ _ _ _ _ _ _ _ _ _ _ _ _ _ _ _ _ _ _ _)
    · rw [Dat.leavesExact_idle (dats m 0 c) 4 t (idle4 t (fun h => h1 ((hcondLast t).mp h))) (noFlush4 t (fun h => h1 ((hcondLast t).mp h)))]
      rw [outsAt_middle m c t h0 h1]
      unfold accMiddle; (try dsimp only)
      rw [PhiS_castSucc m c t, PhiS_pos m c _ _ hz]
      iintro ⟨HS, Ho, ⟨%d0, H0⟩, ⟨%d1, H1⟩, ⟨%d2, H2⟩, ⟨%d3, H3⟩, ⟨%d4, H4⟩⟩
      iapply ((bodyMiddle c (grid0.coords t) _ _ _ _ _ _ _ _ _ _ _ _ (fun h => h0 ((hcondFirst t).mp h)) (fun h => h1 ((hcondLast t).mp h)) (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS]
      · unfold owns; iexists _; isplitr
        swap; · iexact HS
        ipureintro; exact View.read_writes_of_cover _ _ _ _ _ (accCoverMiddle c _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region — the accumulator at anything — is the invariant before the first point. -/
theorem hin (c : Dev nD) : (Pipeline.scopedRest spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the accumulator's named contents are forgotten. -/
theorem hout (c : Dev nD) : (dats m 0 c).Φ (Fin.last cfg0.N) ⊢ (Pipeline.scopedRest spec0 c : sProp 𝕄) := by
  have ht : (Fin.last cfg0.N).val ≠ 0 := by rw [Fin.val_last]; have : cfg0.N = 256 := N_0; omega
  rw [show (dats m 0 c).Φ (Fin.last cfg0.N) = PhiS m c (Fin.last cfg0.N).val (Nat.le_of_lt_succ (Fin.last cfg0.N).isLt) from rfl, PhiS_pos m c _ _ ht, scopedRest_eq]
  iintro HS
  iexists _; iexact HS

end Cert.Kernel.Region

end
-- ==== Proof.Bits.Launch.lean ====
/-
  The pair-sum region launched inside @main: the host operations before it have run, the region's five windows are
  dealt the four arrays behind them (the class-1 probabilities are read through two windows, each holding half of the
  array's share), the region runs, and the six host operations after it (the count of positives, the division of the
  kernel's sum by it) run from the region's exit. The run ends with every window's array at what the proof data
  compute and every other unscoped buffer at what the later host operations leave from the region-entry contents with
  the output array at the kernel's result.
-/
import proofs.«103627_j80530636800492_1_alg».proof.Proof.Bits.Setup
import Idealize.ShloMosaic.Lib.Pipeline.Launch
import Idealize.ShloMosaic.Lib.Pipeline.FrameSuffix
import Idealize.ShloMosaic.Lib.StableHlo.Run

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

set_option Elab.async false

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers after the later host lines -/

/-- The buffers after the later host lines run from the region-entry contents with the output array at `o`. -/
def withOut (c : Dev nD) (W : Valuation τ sig (Elt F)) (o : Buf (Elt F) ((c.tc : Thread nD τ).loc main_v22)) : Valuation τ sig (Elt F) :=
  Function.update W (Proc.devRef .tc main_v22) o

/-- What core `c`'s buffer `b` holds when @main returns, the kernel having left `o c` in its output array. -/
def tailV (o : (c : Dev nD) → Buf (Elt F) ((c.tc : Thread nD τ).loc main_v22)) (c : Dev nD) (b : Ref sig .tc) :
    Buf (Elt F) ((c.tc : Thread nD τ).loc b) :=
  StableHlo.after hostOps1 (withOut c (V0 m c) (o c)) (Proc.devRef .tc b)

theorem withOut_out (c : Dev nD) (W : Valuation τ sig (Elt F)) (o : Buf (Elt F) ((c.tc : Thread nD τ).loc main_v22)) :
    withOut c W o (Proc.devRef .tc main_v22) = o := Function.update_self ..

theorem withOut_of_ne (c : Dev nD) (W : Valuation τ sig (Elt F)) (o : Buf (Elt F) ((c.tc : Thread nD τ).loc main_v22))
    (r : Ref sig .tc) (h : r ≠ main_v22) : withOut c W o (Proc.devRef .tc r) = W (Proc.devRef .tc r) :=
  Function.update_of_ne (StableHlo.devRef_ne_of_ne h) ..

theorem mem_restRefs_arg0 : main_arg0 ∈ Pipeline.restRefs sig spec0 := Pipeline.mem_restRefs_of _ (by decide) (by decide)
theorem mem_restRefs_arg1 : main_arg1 ∈ Pipeline.restRefs sig spec0 := Pipeline.mem_restRefs_of _ (by decide) (by decide)
theorem mem_restRefs_v26 : main_v26 ∈ Pipeline.restRefs sig spec0 := Pipeline.mem_restRefs_of _ (by decide) (by decide)

/-- The references the host operations before the region write, -/
abbrev hostOps0_W : List (Ref sig .tc) :=
  [main_cst, main_v0, main_cst_0, main_v1, main_v2, main_v3, main_v4, main_v5, main_v6, main_cst_1, main_v7, main_v8, main_v9, main_v10,
   main_v11, main_v12, main_c, main_v13, main_v14, main_v15, main_c_2, main_v16, main_v17, main_v18, main_v19, main_v20, main_v21]
/-- and those after it. -/
abbrev hostOps1_W : List (Ref sig .tc) := [main_cst_3, main_v23, main_v24, main_cst_4, main_v25, main_v26]

theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.reshape_writes,
    Finset.singleton_subset_iff, List.mem_toFinset]
  repeat' apply And.intro
  all_goals exact List.mem_map_of_mem (by decide)
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.reshape_writes,
    Finset.singleton_subset_iff, List.mem_toFinset]
  repeat' apply And.intro
  all_goals exact List.mem_map_of_mem (by decide)

/-- A buffer no later host line writes, and not the output array, holds at the return what the region found in it. -/
theorem tailV_of (o : (c : Dev nD) → Buf (Elt F) ((c.tc : Thread nD τ).loc main_v22)) (c : Dev nD) (r : Ref sig .tc)
    (h : r ∉ hostOps1_W) (h' : r ≠ main_v22) : tailV m o c r = V m c r := by
  unfold tailV
  rw [StableHlo.after_of_writes_sub hostOps1 _ hostOps1_writes h, withOut_of_ne c _ _ r h']

/-- A buffer no earlier host line writes is found by the region as launched. -/
theorem V_of (c : Dev nD) (r : Ref sig .tc) (h : r ∉ hostOps0_W) : V m c r = m ((c.tc : Thread nD τ).loc r) := by
  unfold V V0
  rw [List.flatten_cons, List.flatten_nil, List.append_nil, StableHlo.after_of_writes_sub hostOps0 _ hostOps0_writes h]

theorem tailV_arg0 (o : (c : Dev nD) → Buf (Elt F) ((c.tc : Thread nD τ).loc main_v22)) (c : Dev nD) :
    tailV m o c main_arg0 = m ((c.tc : Thread nD τ).loc main_arg0) :=
  (tailV_of m o c main_arg0 (by decide) (by decide)).trans (V_of m c main_arg0 (by decide))
theorem tailV_arg1 (o : (c : Dev nD) → Buf (Elt F) ((c.tc : Thread nD τ).loc main_v22)) (c : Dev nD) :
    tailV m o c main_arg1 = m ((c.tc : Thread nD τ).loc main_arg1) :=
  (tailV_of m o c main_arg1 (by decide) (by decide)).trans (V_of m c main_arg1 (by decide))

theorem tailV_v26 (o : (c : Dev nD) → Buf (Elt F) ((c.tc : Thread nD τ).loc main_v22)) (c : Dev nD) :
    tailV m o c main_v26 = Host.divf (shapeCast S_ (o c) shapeCasts_S1x1_S_)
      (maximumf (Host.reduceAdd (V m c main_v15) (constant S_ .f32 0x00000000#32) reducesTo_S16384_S_d0 h_S_) (constant S_ .f32 0x3F800000#32)) := by
  unfold tailV
  open StableHlo in after_results
  rw [withOut_out, withOut_of_ne c _ _ main_v15 (by decide)]
  rfl

/-! ## The windows' arrays, one by one -/

/-- The proof data's `arrays`, window by window: each window's array is a whole buffer, the four inputs held at the
    shares the proof data name, the output at the full share. -/
theorem arrays_open (c : Dev nD) (dat : Pipeline.Dat τ (Elt F) Unit ℕ (UR sig nD τ) ℕ cfg0 c)
    (G : (w : Fin cfg0.W) → Buf (Elt F) ((cfg0.win w).arr.view.loc (c.tc : Thread nD τ))) :
    (dat.arrays G : sProp 𝕄) = iprop(
      (((c.tc : Thread nD τ).loc main_v19) ↦{dat.q 0} G 0) ∗ (((c.tc : Thread nD τ).loc main_v20) ↦{dat.q 1} G 1)
      ∗ (((c.tc : Thread nD τ).loc main_v19) ↦{dat.q 2} G 2) ∗ (((c.tc : Thread nD τ).loc main_v21) ↦{dat.q 3} G 3)
      ∗ (((c.tc : Thread nD τ).loc main_v22) ↦{fullShare} G 4)) := by
  unfold Dat.arrays
  rw [bigSep_congr (Ψ := fun w => (((c.tc : Thread nD τ).loc (Pipeline.arrRef spec0 w)) ↦{dat.share w} G w : sProp 𝕄))
    (fun w _ => by rw [(arr_whole0 w).set_eq_univ]), bigSep_W0]
  rfl

/-- The distinct buffers behind the five windows are four. -/
theorem arrBufs_open (c : Dev nD) (W : (b : Ref sig .tc) → Buf (Elt F) ((c.tc : Thread nD τ).loc b)) :
    (Pipeline.arrBufs spec0 c W : sProp 𝕄) = iprop(
      (((c.tc : Thread nD τ).loc main_v19) ↦{fullShare} W main_v19) ∗ (((c.tc : Thread nD τ).loc main_v20) ↦{fullShare} W main_v20)
      ∗ (((c.tc : Thread nD τ).loc main_v21) ↦{fullShare} W main_v21) ∗ (((c.tc : Thread nD τ).loc main_v22) ↦{fullShare} W main_v22)) := by
  unfold Pipeline.arrBufs
  rw [show Finset.univ.image (Pipeline.arrRef spec0) = {main_v19, main_v20, main_v21, main_v22} from by decide,
    bigSep_insert (by decide), bigSep_insert (by decide), bigSep_insert (by decide), bigSep_singleton]
  rfl

/-- The four buffers behind the five windows, each whole at its region-entry contents, make the proof data's `arrays` at
    entry: the array two windows read is split in two halves of its share, one per window. -/
theorem hsplit_of (c : Dev nD) (dat : Pipeline.Dat τ (Elt F) Unit ℕ (UR sig nD τ) ℕ cfg0 c)
    (hq0 : dat.q 0 = fullShare.left) (hq2 : dat.q 2 = fullShare.right) (hq1 : dat.q 1 = fullShare) (hq3 : dat.q 3 = fullShare)
    (hA : ∀ w, dat.A w = V m c (Pipeline.arrRef spec0 w)) :
    (Pipeline.arrBufs spec0 c (V m c) : sProp 𝕄) ⊢ dat.arrays (dat.arrAt · 0) := by
  rw [arrays_open, hq0, hq1, hq2, hq3, arrBufs_open]
  simp only [Dat.arrAt, hA]
  iintro ⟨H19, H20, H21, H22⟩
  ihave H19' := (pointsTo_share (PosShare.mem_left_op_right fullShare)).1 $$ H19
  icases H19' with ⟨Ha, Hb⟩
  isplitl [Ha]; · iexact Ha
  isplitl [H20]; · iexact H20
  isplitl [Hb]; · iexact Hb
  isplitl [H21]; · iexact H21
  iexact H22

/-! ## The later host lines -/

/-- The device buffers the later host lines run within: the output array and the buffers that bypass the region. -/
def tailS : Finset (DevRef τ sig) :=
  (insert main_v22 (Pipeline.restRefs sig spec0)).map ⟨Proc.devRef (sig := sig) .tc, Proc.devRef_injective _⟩

/-- The output array is a window's: it does not bypass the region. -/
theorem out_not_mem_restRefs : main_v22 ∉ Pipeline.restRefs sig spec0 := fun h =>
  (Finset.mem_sdiff.mp h).2 (Finset.mem_image.mpr ⟨4, Finset.mem_univ _, rfl⟩)

/-- Those buffers held at a valuation: the output array, and the bypassing buffers. -/
theorem held_tailS (c : Dev nD) (Wv : Valuation τ sig (Elt F)) :
    (StableHlo.held (c.tc : Thread nD τ) tailS Wv : sProp 𝕄)
      = iprop((((c.tc : Thread nD τ).loc main_v22) ↦{fullShare} Wv (Proc.devRef .tc main_v22))
          ∗ Pipeline.unscopedRest spec0 c (fun b => Wv (Proc.devRef .tc b))) := by
  unfold StableHlo.held tailS Pipeline.unscopedRest
  rw [bigSep_map, bigSep_insert out_not_mem_restRefs]
  rfl

theorem mem_tailS_out : Proc.devRef .tc main_v22 ∈ tailS := Finset.mem_map_of_mem _ (Finset.mem_insert_self _ _)
theorem mem_tailS_of (r : Ref sig .tc) (hs : r.isScoped = false) (ha : ∀ w, (spec0 w).arr.view.ref ≠ r) :
    Proc.devRef .tc r ∈ tailS :=
  Finset.mem_map_of_mem _ (Finset.mem_insert_of_mem (Pipeline.mem_restRefs_of r hs ha))

/-- Every later host line touches only the output array and bypassing buffers: none names an input array of the region. -/
theorem hostOps1_tailS : (hostOps1 : List (HloOp τ sig (Elt F))).Forall fun op => op.bufs ⊆ tailS := by
  simp only [List.Forall, StableHlo.nullary_bufs, StableHlo.binary_bufs, StableHlo.reshape_bufs, Finset.insert_subset_iff,
    Finset.singleton_subset_iff]
  repeat' apply And.intro
  all_goals first | exact mem_tailS_out | exact mem_tailS_of _ (by decide) (by decide)

theorem unscopedRest_congr (c : Dev nD) {W W' : (b : Ref sig .tc) → Buf (Elt F) ((c.tc : Thread nD τ).loc b)}
    (h : ∀ b ∈ Pipeline.restRefs sig spec0, W b = W' b) :
    (Pipeline.unscopedRest spec0 c W : sProp 𝕄) = Pipeline.unscopedRest spec0 c W' := by
  unfold Pipeline.unscopedRest
  exact bigSep_congr fun b hb => by rw [h b hb]

/-- The buffers the later host lines run within, at the region's exit: the output array at the kernel's result, the
    bypassing buffers as the region found them. -/
theorem held_entry (c : Dev nD) (o : Buf (Elt F) ((c.tc : Thread nD τ).loc main_v22)) :
    (StableHlo.held (c.tc : Thread nD τ) tailS (withOut c (V0 m c) o) : sProp 𝕄)
      = iprop((((c.tc : Thread nD τ).loc main_v22) ↦{fullShare} o) ∗ Pipeline.unscopedRest spec0 c (V m c)) := by
  rw [held_tailS, withOut_out,
    unscopedRest_congr c (W := fun b => withOut c (V0 m c) o (Proc.devRef .tc b)) (W' := V m c)
      (fun b hb => withOut_of_ne c _ _ b (fun e => out_not_mem_restRefs (e ▸ hb)))]

/-- The same after the lines: no line writes the output array. -/
theorem held_exit (o : (c : Dev nD) → Buf (Elt F) ((c.tc : Thread nD τ).loc main_v22)) (c : Dev nD) :
    (StableHlo.held (c.tc : Thread nD τ) tailS (StableHlo.after hostOps1 (withOut c (V0 m c) (o c))) : sProp 𝕄)
      = iprop((((c.tc : Thread nD τ).loc main_v22) ↦{fullShare} o c) ∗ Pipeline.unscopedRest spec0 c (tailV m o c)) := by
  rw [held_tailS, StableHlo.after_of_writes_sub (r := main_v22) hostOps1 _ hostOps1_writes (by decide), withOut_out]
  rfl

set_option backward.isDefEq.respectTransparency.types false in
/-- The later host lines, from the region's exit: they run within the output array (window 4's piece of `arrays`, whole
    at the full share) and the bypassing buffers, the four input pieces framed; none writes the output array, so
    `arrays` comes back as it was, and the bypassing buffers hold `tailV`. -/
theorem tail_run (dats : (p : Fin 1) → (c : Dev nD) → Pipeline.Dat τ (Elt F) Unit ℕ (UR sig nD τ) ℕ (cfgs p) c)
    (c : Dev nD) (Q' : PUnit → sProp 𝕄) :
    iprop((iprop((dats 0 c).arrays ((dats 0 c).arrAt · cfg0.N)
              ∗ Pipeline.unscopedRest spec0 c (tailV m (fun c => (dats 0 c).arrAt 4 cfg0.N) c)) -∗ Q' ⟨⟩)
        ∗ boundary (c.tc : Thread nD τ) ∗ (dats 0 c).arrays ((dats 0 c).arrAt · cfg0.N) ∗ Pipeline.unscopedRest spec0 c (V m c))
      ⊢ wp frame (wpE (Pipeline.defs (fun q => Cfg.toPCfg (Val := Elt F) (cfgs q)) defs₀) (Variants.lift Variants.none) (c.tc : Thread nD τ) none)
          Set.univ (Pipeline.chain [StableHlo.seq hostOps1]) Q' := by
  rw [arrays_open, Pipeline.chain_cons, Pipeline.chain_nil]
  refine (show _ ⊢ iprop((iprop((((c.tc : Thread nD τ).loc main_v22) ↦{fullShare} (dats 0 c).arrAt 4 cfg0.N)
              ∗ Pipeline.unscopedRest spec0 c (tailV m (fun c => (dats 0 c).arrAt 4 cfg0.N) c)) -∗ Q' ⟨⟩)
          ∗ boundary (c.tc : Thread nD τ)
          ∗ StableHlo.held (c.tc : Thread nD τ) tailS (withOut c (V0 m c) ((dats 0 c).arrAt 4 cfg0.N))) from by
    rw [held_entry]
    iintro ⟨Hk, Hb, ⟨H0, H1, H2, H3, H4⟩, HU⟩
    isplitl [Hk H0 H1 H2 H3]
    · iintro ⟨H4, HU⟩
      iapply Hk
      isplitr [HU]
      · isplitl [H0]; · iexact H0
        isplitl [H1]; · iexact H1
        isplitl [H2]; · iexact H2
        isplitl [H3]; · iexact H3
        iexact H4
      · iexact HU
    isplitl [Hb]; · iexact Hb
    isplitl [H4]; · iexact H4
    iexact HU).trans ?_
  iintro ⟨Hk, Hb⟩
  iapply (StableHlo.wp_seq (Variants.lift Variants.none) none Set.univ c tailS _ hostOps1
    (List.forall_iff_forall_mem.mp hostOps1_tailS) (List.forall_iff_forall_mem.mp hostOps1_fresh)
    (withOut c (V0 m c) ((dats 0 c).arrAt 4 cfg0.N))) $$ Hb
  iintro Hb
  rw [wp_pure, held_exit m (fun c => (dats 0 c).arrAt 4 cfg0.N) c]
  imodintro
  iapply Hk
  icases Hb with ⟨-, H⟩
  iexact H

/-! ## The run -/

/-- THE RUN of @main around the pair-sum region. The proof data deal the class-1 probabilities' array to windows 0 and 2
    in two halves of its share and hold the two masks' arrays whole; their invariant is entered from the accumulator at
    anything and returns it. The run ends with every window's array at what the proof data compute and every other
    unscoped buffer at what the later host lines leave (`tailV`) from the kernel's result in the output array. -/
theorem run_region (dats : (p : Fin 1) → (c : Dev nD) → Pipeline.Dat τ (Elt F) Unit ℕ (UR sig nD τ) ℕ (cfgs p) c)
    (hq0 : ∀ c, (dats 0 c).q 0 = fullShare.left) (hq2 : ∀ c, (dats 0 c).q 2 = fullShare.right)
    (hq1 : ∀ c, (dats 0 c).q 1 = fullShare) (hq3 : ∀ c, (dats 0 c).q 3 = fullShare)
    (hA : ∀ c w, (dats 0 c).A w = V m c (Pipeline.arrRef spec0 w))
    (hbody : ∀ c, Pipeline.BodyObligationLoose (dats 0 c) defs₀ Variants.none () Set.univ)
    (howed : ∀ c t, (dats 0 c).owed t = 0)
    (hin : ∀ c, (Pipeline.scopedRest spec0 c : sProp 𝕄) ⊢ (dats 0 c).Φ 0)
    (hout : ∀ c, (dats 0 c).Φ (Fin.last cfg0.N) ⊢ (Pipeline.scopedRest spec0 c : sProp 𝕄)) :
    θ_run defs (onTc (τ := τ) (main (F := F))) (s₀ m ρ) (fun r => ∀ c : Dev nD,
      (∀ w, r.2.mem ((spec0 w).arr.view.loc (c.tc : Thread nD τ)) = (dats 0 c).arrAt w cfg0.N)
      ∧ ∀ b ∈ Pipeline.restRefs sig spec0, r.2.mem ((c.tc : Thread nD τ).loc b) = tailV m (fun c => (dats 0 c).arrAt 4 cfg0.N) c b) := by
  classical
  exact Pipeline.θ_run_region_noSem_pf_tail (fun q => (cfgs q).toPCfg) (fun q => (cfgs q).toPCfg_adm) dats () cellOf_inj 0 winFacts₀0
    (Pipeline.PreFacts.none _) emb₁ defs₀ Variants.none m ρ main (fun _ => Pipeline.chain [StableHlo.seq hostOps1])
    hbody block_pos0 arr_whole0 stage_whole0 howed
    (initOf (Pipeline.cells cfgs cellOf_inj) (Pipeline.launchToks cfgs cellOf_inj)) .rfl (V m) (hmain m Variants.none)
    (fun c => hsplit_of m c (dats 0 c) (hq0 c) (hq2 c) (hq1 c) (hq3 c) (hA c))
    (fun _ k => k.elim0)
    (X := fun _ => iprop(emp)) (Y := fun _ => iprop(emp))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c
      (tailV m (fun c => (dats 0 c).arrAt 4 cfg0.N) c))
    (hX := fun c => by
      rw [Pipeline.unscopedRestP_none]
      iintro HU
      isplitr; · iempintro
      iexact HU)
    (hin := fun c => (show _ ⊢ (Pipeline.scopedRest spec0 c : sProp 𝕄) from by iintro ⟨-, -, H⟩; iexact H).trans (hin c))
    (hout := fun c => (hout c).trans (by
      iintro H
      isplitr; · iempintro
      iexact H))
    (htail := fun c Q' => tail_run m dats c Q')
    (QY := fun c s => ∀ b ∈ Pipeline.restRefs sig spec0,
      s.mem ((c.tc : Thread nD τ).loc b) = tailV m (fun c => (dats 0 c).arrAt 4 cfg0.N) c b)
    (hY := fun c s' => by
      iintro ⟨-, HU, HSI⟩
      unfold Pipeline.unscopedRest
      imodintro
      iapply (pointsTo_read_all (Pipeline.restRefs sig spec0) (fun b => (c.tc : Thread nD τ).loc b)
        (tailV m (fun c => (dats 0 c).arrAt 4 cfg0.N) c) s')
      isplitl [HU] <;> iassumption)
    (hQ := fun s h c => ⟨(h c).1, (h c).2.2⟩)

end Cert.Kernel.Region

end
-- ==== Proof.Bits.Frame.lean ====
/-
  The run of the program around the pair-sum region, and its frame: every weakly fair execution terminates without a
  fault; every array of the region ends at what the proof data compute for it, every other buffer at what the host
  lines after the region leave; in particular the two argument arrays end as they began.
-/
import proofs.«103627_j80530636800492_1_alg».proof.Proof.Bits.BodyObligation
import proofs.«103627_j80530636800492_1_alg».proof.Proof.Bits.Launch

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run with every final buffer named. -/
theorem run_main : θ_run defs (onTc (τ := τ) (main (F := F))) (s₀ m ρ) (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = tailV m (fun c => (dats m 0 c).arrAt 4 cfg0.N) c b) :=
  run_region m ρ (dats m) (fun _ => rfl) (fun _ => rfl) (fun _ => rfl) (fun _ => rfl) (A_eq m)
    (fun c => (body_obligation m c).loose) (fun _ _ => rfl) (hin m) (hout m)

/-- THE FRAME: the program runs to the end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_arg0 mem_restRefs_arg0).trans (tailV_arg0 m _ c),
       ((h c).2 main_arg1 mem_restRefs_arg1).trans (tailV_arg1 m _ c)⟩)
    (run_main m ρ)

end Cert.Kernel.Region

end
-- ==== Proof.Ideal.Setup.lean ====
/-
  The pair-sum region of the kernel program, set up for its frame: what core `c`'s buffers hold when the region is
  entered (the host operations before it have run: the class-1 probabilities and the two 0/1 masks, each reshaped to one
  row of 16384), @main as "earlier host lines, the region, later host lines", each window's block at a grid point, the
  two branch conditions of the body in closed form over the 16 x 16 grid (the accumulator is reset at the first point
  only and copied to the output at the last point only), and where the output window is idle.
-/
import proofs.«103627_j80530636800492_1_alg».proof.Proof.Gen.KernelIdeal.Launch
import proofs.«103627_j80530636800492_1_alg».proof.Proof.Gen.KernelIdeal.Skeleton
import proofs.«103627_j80530636800492_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the later host lines, at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two branch conditions over the grid -/

/-- The accumulator is reset: both grid coordinates are zero. -/
abbrev condFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- That is the first of the 256 points. -/
theorem hcondFirst : ∀ t : Fin cfg0.N, condFirst (grid0.coords t) ↔ t.val % 256 = 0 :=
  (by decide +kernel : ∀ t : Fin grid0.N, condFirst (grid0.coords t) ↔ t.val % 256 = 0)

/-- The accumulator is copied to the output: both grid coordinates are 15. -/
abbrev condLast (i : grid0.Coords) : Prop := k0_cond2 i = 1#1
/-- That is the last of the 256 points. -/
theorem hcondLast : ∀ t : Fin cfg0.N, condLast (grid0.coords t) ↔ t.val % 256 = 255 :=
  (by decide +kernel : ∀ t : Fin grid0.N, condLast (grid0.coords t) ↔ t.val % 256 = 255)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Away from the last point the body stores nothing into the output window, -/
theorem idle4 : ∀ t : Fin cfg0.N, ¬condLast (grid0.coords t) → cfg0.idle 4 (grid0.coords t) = true := by decide +kernel
/-- and the pipeline does not write its block back there; -/
theorem noFlush4 : ∀ t : Fin cfg0.N, ¬condLast (grid0.coords t) → (cfg0.win 4).flush t = false := by decide +kernel
/-- at the last point the body stores into it. -/
theorem live4 : ∀ t : Fin cfg0.N, condLast (grid0.coords t) → cfg0.idle 4 (grid0.coords t) = false := by decide +kernel

/-! ## The staging memrefs the body is called with -/

abbrev VO4 : View sig .tc .vmem S1x1 .f32 := (Memref.whole cc0_stg4_0 : Memref sig .tc .vmem S1x1 .f32).view
abbrev ms0 (t : Fin cfg0.N) : Memref sig .tc .vmem S1x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
/-- The accumulator: a whole scoped buffer of the kernel's own, passed beside the windows. -/
abbrev scM : Memref sig .tc .vmem S1x1 .f32 := Memref.whole cc0_scratch0
abbrev VS : View sig .tc .vmem S1x1 .f32 := scM.view

/-- The scoped buffers no window stages are the accumulator, owned at some contents. -/
theorem scopedRest_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.KernelIdeal.Region

end
-- ==== Proof.Ideal.BodyMiddle.lean ====
/-
  The body at a grid point that is neither the first nor the last: the accumulator is not reset and the output window is
  not touched. The run finds what the accumulator holds afterwards as the pieces the body stored into it.
-/
import proofs.«103627_j80530636800492_1_alg».proof.Proof.Ideal.Setup

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a middle point, on whole staging memrefs — the four input blocks at their contents, the output's buffer at
    contents handed back untouched, the accumulator at what the point before left — the body runs to the continuation
    holding the inputs as they were and the accumulator with its pieces written. -/
noncomputable def bodyMiddle (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : ¬condLast i)
    (x0 x1 x2 x3 : Vec F S1x1024 .f32) (xs : Vec F S1x1 .f32) :
    Σ' (L4 : List (View.Piece (Elt F) S1x1 .f32)), { LS : List (View.Piece (Elt F) S1x1 .f32) //
      ∀ (xi4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc0__pair_sum_kernel i arg2 harg2 arg3 harg3 arg4 harg4 arg5 harg5 arg6 harg6 arg7 harg7) K } := by
  refine ⟨[], ?_, fun xi4 E K => ?run⟩
  case run =>
    simp only [cc0__pair_sum_kernel_eq_skeleton]; unfold cc0__pair_sum_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Region

end
-- ==== Proof.Ideal.BodyFirst.lean ====
/-
  The body at the first grid point: the accumulator is reset to zero before the tile's sum is added, and the output
  window is not touched. The accumulator may hold anything on entry.
-/
import proofs.«103627_j80530636800492_1_alg».proof.Proof.Ideal.BodyMiddle

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At the first point, on whole staging memrefs — the four input blocks at their contents, the output's buffer at
    contents handed back untouched, the accumulator at anything — the body runs to the continuation holding the inputs
    as they were and the accumulator with its pieces written. -/
noncomputable def bodyFirst (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : condFirst i) (hc1 : ¬condLast i)
    (x0 x1 x2 x3 : Vec F S1x1024 .f32) :
    Σ' (L4 : List (View.Piece (Elt F) S1x1 .f32)), { LS : List (View.Piece (Elt F) S1x1 .f32) //
      ∀ (xi4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc0__pair_sum_kernel i arg2 harg2 arg3 harg3 arg4 harg4 arg5 harg5 arg6 harg6 arg7 harg7) K } := by
  refine ⟨[], ?_, fun xi4 E K => ?run⟩
  case run =>
    simp only [cc0__pair_sum_kernel_eq_skeleton]; unfold cc0__pair_sum_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Region

end
-- ==== Proof.Ideal.BodyLast.lean ====
/-
  The body at the last grid point: the tile's sum is added to the accumulator, and the accumulator is then copied into
  the output window's buffer, which may hold anything on entry.
-/
import proofs.«103627_j80530636800492_1_alg».proof.Proof.Ideal.BodyFirst

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At the last point, on whole staging memrefs — the four input blocks at their contents, the output's buffer at
    anything, the accumulator at what the point before left — the body runs to the continuation holding the inputs as
    they were, the output's buffer with its pieces written and the accumulator with its pieces written. -/
noncomputable def bodyLast (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : condLast i)
    (x0 x1 x2 x3 : Vec F S1x1024 .f32) (xs : Vec F S1x1 .f32) :
    Σ' (L4 : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc0__pair_sum_kernel i arg2 harg2 arg3 harg3 arg4 harg4 arg5 harg5 arg6 harg6 arg7 harg7) K } := by
  refine ⟨?_, ?_, fun E K => ?run⟩
  case run =>
    simp only [cc0__pair_sum_kernel_eq_skeleton]; unfold cc0__pair_sum_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3
    obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.KernelIdeal.Region

end
-- ==== Proof.Ideal.RegionData.lean ====
/-
  The proof data of the pair-sum region and its body obligation. After the body at grid point n the accumulator holds
  what the point's case leaves in it: at the first point the tile's sum added to a fresh zero, afterwards the tile's sum
  added to what the point before left; the output window's buffer is written at the last point only (a copy of the
  accumulator) and is idle, handed back untouched, at every other point. The two score windows read one array, so the
  core holds that array as two half shares.
-/
import proofs.«103627_j80530636800492_1_alg».proof.Proof.Ideal.BodyLast

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- At the first point nothing is stored into the output's buffer: a placeholder nothing consults (the window is idle there and not written back). -/
def outFirst (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : condFirst i) (hc1 : ¬condLast i)
    (x0 x1 x2 x3 : Vec F S1x1024 .f32) : Vec F S1x1 .f32 :=
  VO4.read (Elt F) (VO4.writes (Elt F) VO4.junk (bodyFirst c i arg2 harg2 arg3 harg3 arg4 harg4 arg5 harg5 arg6 harg6 arg7 harg7 hc0 hc1 x0 x1 x2 x3).1)

/-- The pieces the body stores into the accumulator at the first point cover it (one store of the whole [1,1] buffer last). -/
theorem accCoverFirst (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : condFirst i) (hc1 : ¬condLast i)
    (x0 x1 x2 x3 : Vec F S1x1024 .f32) (y : S1x1.Idx) :
    ∃ pc ∈ (bodyFirst c i arg2 harg2 arg3 harg3 arg4 harg4 arg5 harg5 arg6 harg6 arg7 harg7 hc0 hc1 x0 x1 x2 x3).2.1, y ∈ pc.1.set :=
  View.cover_of_tiledL (bodyFirst c i arg2 harg2 arg3 harg3 arg4 harg4 arg5 harg5 arg6 harg6 arg7 harg7 hc0 hc1 x0 x1 x2 x3).2.1 S1x1.size (by sl_kernel_rfl) y

/-- What the accumulator holds after the body at the first point: its pieces read back. -/
def accFirst (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : condFirst i) (hc1 : ¬condLast i)
    (x0 x1 x2 x3 : Vec F S1x1024 .f32) : Vec F S1x1 .f32 :=
  VS.read (Elt F) (VS.writes (Elt F) VS.junk (bodyFirst c i arg2 harg2 arg3 harg3 arg4 harg4 arg5 harg5 arg6 harg6 arg7 harg7 hc0 hc1 x0 x1 x2 x3).2.1)

/-- At a middle point nothing is stored into the output's buffer: a placeholder nothing consults. -/
def outMiddle (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : ¬condLast i)
    (x0 x1 x2 x3 : Vec F S1x1024 .f32) (xs : Vec F S1x1 .f32) : Vec F S1x1 .f32 :=
  VO4.read (Elt F) (VO4.writes (Elt F) VO4.junk (bodyMiddle c i arg2 harg2 arg3 harg3 arg4 harg4 arg5 harg5 arg6 harg6 arg7 harg7 hc0 hc1 x0 x1 x2 x3 xs).1)

/-- The pieces the body stores into the accumulator at a middle point cover it (one store of the whole [1,1] buffer last). -/
theorem accCoverMiddle (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : ¬condLast i)
    (x0 x1 x2 x3 : Vec F S1x1024 .f32) (xs : Vec F S1x1 .f32) (y : S1x1.Idx) :
    ∃ pc ∈ (bodyMiddle c i arg2 harg2 arg3 harg3 arg4 harg4 arg5 harg5 arg6 harg6 arg7 harg7 hc0 hc1 x0 x1 x2 x3 xs).2.1, y ∈ pc.1.set :=
  View.cover_of_tiledL (bodyMiddle c i arg2 harg2 arg3 harg3 arg4 harg4 arg5 harg5 arg6 harg6 arg7 harg7 hc0 hc1 x0 x1 x2 x3 xs).2.1 S1x1.size (by sl_kernel_rfl) y

/-- What the accumulator holds after the body at a middle point: its pieces read back. -/
def accMiddle (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : ¬condLast i)
    (x0 x1 x2 x3 : Vec F S1x1024 .f32) (xs : Vec F S1x1 .f32) : Vec F S1x1 .f32 :=
  VS.read (Elt F) (VS.writes (Elt F) VS.junk (bodyMiddle c i arg2 harg2 arg3 harg3 arg4 harg4 arg5 harg5 arg6 harg6 arg7 harg7 hc0 hc1 x0 x1 x2 x3 xs).2.1)

/-- The piece the body stores into the output's buffer at the last point covers it. -/
theorem outCoverLast (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : condLast i)
    (x0 x1 x2 x3 : Vec F S1x1024 .f32) (xs : Vec F S1x1 .f32) (y : S1x1.Idx) :
    ∃ pc ∈ (bodyLast c i arg2 harg2 arg3 harg3 arg4 harg4 arg5 harg5 arg6 harg6 arg7 harg7 hc0 hc1 x0 x1 x2 x3 xs).1, y ∈ pc.1.set :=
  View.cover_of_tiledL (bodyLast c i arg2 harg2 arg3 harg3 arg4 harg4 arg5 harg5 arg6 harg6 arg7 harg7 hc0 hc1 x0 x1 x2 x3 xs).1 S1x1.size (by sl_kernel_rfl) y

/-- What the output's buffer holds after the body at the last point: its piece read back. -/
def outLast (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : condLast i)
    (x0 x1 x2 x3 : Vec F S1x1024 .f32) (xs : Vec F S1x1 .f32) : Vec F S1x1 .f32 :=
  VO4.read (Elt F) (VO4.writes (Elt F) VO4.junk (bodyLast c i arg2 harg2 arg3 harg3 arg4 harg4 arg5 harg5 arg6 harg6 arg7 harg7 hc0 hc1 x0 x1 x2 x3 xs).1)

/-- The pieces the body stores into the accumulator at the last point cover it (one store of the whole [1,1] buffer last). -/
theorem accCoverLast (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : condLast i)
    (x0 x1 x2 x3 : Vec F S1x1024 .f32) (xs : Vec F S1x1 .f32) (y : S1x1.Idx) :
    ∃ pc ∈ (bodyLast c i arg2 harg2 arg3 harg3 arg4 harg4 arg5 harg5 arg6 harg6 arg7 harg7 hc0 hc1 x0 x1 x2 x3 xs).2.1, y ∈ pc.1.set :=
  View.cover_of_tiledL (bodyLast c i arg2 harg2 arg3 harg3 arg4 harg4 arg5 harg5 arg6 harg6 arg7 harg7 hc0 hc1 x0 x1 x2 x3 xs).2.1 S1x1.size (by sl_kernel_rfl) y

/-- What the accumulator holds after the body at the last point: its pieces read back. -/
def accLast (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : condLast i)
    (x0 x1 x2 x3 : Vec F S1x1024 .f32) (xs : Vec F S1x1 .f32) : Vec F S1x1 .f32 :=
  VS.read (Elt F) (VS.writes (Elt F) VS.junk (bodyLast c i arg2 harg2 arg3 harg3 arg4 harg4 arg5 harg5 arg6 harg6 arg7 harg7 hc0 hc1 x0 x1 x2 x3 xs).2.1)

/-! ## Point by point -/

/-- What the output's buffer and the accumulator hold after the body at position `n` (a pair), by recursion on the
    point: the case the closed forms select, run on the point's staging memrefs and input blocks, over what the point
    before left in the accumulator. -/
def outsAt (c : Dev nD) : (n : ℕ) → n < cfg0.N → Vec F S1x1 .f32 × Vec F S1x1 .f32
  | 0, hn => (outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩) (iblk m c 2 ⟨0, hn⟩) (iblk m c 3 ⟨0, hn⟩), accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 256 = 0 then
      if h1 : (n + 1) % 256 = 255 then
        False.elim (by omega)
      else
        (outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((hcondFirst ⟨n + 1, hn⟩).mpr h0) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩), accFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((hcondFirst ⟨n + 1, hn⟩).mpr h0) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 256 = 255 then
        (outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2, accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2)
      else
        (outMiddle c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2, accMiddle c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2)

theorem outsAt_first (c : Dev nD) (t : Fin cfg0.N) (h0 : t.val % 256 = 0) (h1 : ¬t.val % 256 = 255) :
    outsAt m c t.val t.isLt = (outFirst c (grid0.coords t) (ms0 t) (hs0 t) (ms1 t) (hs1 t) (ms2 t) (hs2 t) (ms3 t) (hs3 t) (ms4 t) (hs4 t) scM (Memref.isWhole_whole _) ((hcondFirst t).mpr h0) (fun h => h1 ((hcondLast t).mp h)) (iblk m c 0 t) (iblk m c 1 t) (iblk m c 2 t) (iblk m c 3 t), accFirst c (grid0.coords t) (ms0 t) (hs0 t) (ms1 t) (hs1 t) (ms2 t) (hs2 t) (ms3 t) (hs3 t) (ms4 t) (hs4 t) scM (Memref.isWhole_whole _) ((hcondFirst t).mpr h0) (fun h => h1 ((hcondLast t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt_middle (c : Dev nD) (t : Fin cfg0.N) (h0 : ¬t.val % 256 = 0) (h1 : ¬t.val % 256 = 255) :
    outsAt m c t.val t.isLt = (outMiddle c (grid0.coords t) (ms0 t) (hs0 t) (ms1 t) (hs1 t) (ms2 t) (hs2 t) (ms3 t) (hs3 t) (ms4 t) (hs4 t) scM (Memref.isWhole_whole _) (fun h => h0 ((hcondFirst t).mp h)) (fun h => h1 ((hcondLast t).mp h)) (iblk m c 0 t) (iblk m c 1 t) (iblk m c 2 t) (iblk m c 3 t) (outsAt m c (t.val - 1) (Nat.lt_of_le_of_lt (Nat.sub_le _ _) t.isLt)).2, accMiddle c (grid0.coords t) (ms0 t) (hs0 t) (ms1 t) (hs1 t) (ms2 t) (hs2 t) (ms3 t) (hs3 t) (ms4 t) (hs4 t) scM (Memref.isWhole_whole _) (fun h => h0 ((hcondFirst t).mp h)) (fun h => h1 ((hcondLast t).mp h)) (iblk m c 0 t) (iblk m c 1 t) (iblk m c 2 t) (iblk m c 3 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 256 = 0) (h1 : t.val % 256 = 255) :
    outsAt m c t.val t.isLt = (outLast c (grid0.coords t) (ms0 t) (hs0 t) (ms1 t) (hs1 t) (ms2 t) (hs2 t) (ms3 t) (hs3 t) (ms4 t) (hs4 t) scM (Memref.isWhole_whole _) (fun h => h0 ((hcondFirst t).mp h)) ((hcondLast t).mpr h1) (iblk m c 0 t) (iblk m c 1 t) (iblk m c 2 t) (iblk m c 3 t) (outsAt m c (t.val - 1) (Nat.lt_of_le_of_lt (Nat.sub_le _ _) t.isLt)).2, accLast c (grid0.coords t) (ms0 t) (hs0 t) (ms1 t) (hs1 t) (ms2 t) (hs2 t) (ms3 t) (hs3 t) (ms4 t) (hs4 t) scM (Memref.isWhole_whole _) (fun h => h0 ((hcondFirst t).mp h)) ((hcondLast t).mpr h1) (iblk m c 0 t) (iblk m c 1 t) (iblk m c 2 t) (iblk m c 3 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the accumulator holds anything; afterwards what
    the point before left in it. -/
def PhiS (c : Dev nD) : (n : ℕ) → n ≤ cfg0.N → sProp 𝕄
  | 0, _ => Pipeline.scopedRest spec0 c
  | n + 1, hn => owns (c : Thread nD τ) scM fullShare ((outsAt m c n hn).2)

theorem PhiS_zero (c : Dev nD) (n : ℕ) (h : n ≤ cfg0.N) (hz : n = 0) : PhiS m c n h = Pipeline.scopedRest spec0 c := by
  subst hz; rfl

theorem PhiS_succ (c : Dev nD) (n : ℕ) (hn : n < cfg0.N) :
    PhiS m c (n + 1) hn = owns (c : Thread nD τ) scM fullShare ((outsAt m c n hn).2) := rfl

theorem PhiS_pos (c : Dev nD) (n : ℕ) (h : n ≤ cfg0.N) (hz : n ≠ 0) :
    PhiS m c n h = owns (c : Thread nD τ) scM fullShare ((outsAt m c (n - 1) (by omega)).2) := by
  cases n with
  | zero => exact absurd rfl hz
  | succ n => rfl

/-! ## The proof data -/

/-- The arrays as the region finds them; after the body each input's buffer at its block and the output's at
    `outsAt`; the invariant `PhiS`; nothing owed; the array the two score windows share held as two halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q w := match w with
    | ⟨0, _⟩ => fullShare.left
    | ⟨1, _⟩ => fullShare
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

end Cert.KernelIdeal.Region

end
-- ==== Proof.Ideal.BodyObligation.lean ====
/-
  The body obligation of the pair-sum region at a generic grid point: the four input buffers hold their blocks; the
  closed forms say whether the point is the first, the last or a middle one; the case's run applies; the invariant
  hands the body the accumulator at what the point before left (at anything before the first point) and takes it back
  at this point's contents; the output's buffer is handed back untouched except at the last point.
-/
import proofs.«103627_j80530636800492_1_alg».proof.Proof.Ideal.RegionData

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  by_cases h0 : t.val % 256 = 0
  · by_cases h1 : t.val % 256 = 255
    · exfalso; omega
    · rw [Dat.leavesExact_idle (dats m 0 c) 4 t (idle4 t (fun h => h1 ((hcondLast t).mp h))) (noFlush4 t (fun h => h1 ((hcondLast t).mp h)))]
      rw [outsAt_first m c t h0 h1]
      unfold accFirst; (try dsimp only)
      have hz : t.val = 0 := by omega
      rw [PhiS_castSucc m c t, PhiS_zero m c _ _ hz, scopedRest_eq]
      iintro ⟨HS, Ho, ⟨%d0, H0⟩, ⟨%d1, H1⟩, ⟨%d2, H2⟩, ⟨%d3, H3⟩, ⟨%d4, H4⟩⟩
      iapply ((bodyFirst c (grid0.coords t) _ _ _ _ _ _ _ _ _ _ _ _ ((hcondFirst t).mpr h0) (fun h => h1 ((hcondLast t).mp h)) (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS]
      · unfold owns; iexists _; isplitr
        swap; · iexact HS
        ipureintro; exact View.read_writes_of_cover _ _ _ _ _ (accCoverFirst c _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 256 = 255
    · rw [show (dats m 0 c).leavesExact 4 t = owns (c : Thread nD τ) (ms4 t) fullShare ((dats m 0 c).after 4 t) from by
        unfold Dat.leavesExact; rw [live4 t ((hcondLast t).mpr h1)], after4]
      rw [outsAt_last m c t h0 h1]
      unfold outLast accLast; (try dsimp only)
      rw [PhiS_castSucc m c t, PhiS_pos m c _ _ hz]
      iintro ⟨HS, Ho, ⟨%d0, H0⟩, ⟨%d1, H1⟩, ⟨%d2, H2⟩, ⟨%d3, H3⟩, ⟨%d4, H4⟩⟩
      iapply ((bodyLast c (grid0.coords t) _ _ _ _ _ _ _ _ _ _ _ _ (fun h => h0 ((hcondFirst t).mp h)) ((hcondLast t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS]
      · unfold owns; iexists _; isplitr
        swap; · iexact HS
        ipureintro; exact View.read_writes_of_cover _ _ _ _ _ (accCoverLast c _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (outCoverLast c _ _ _ _ _ _ _ _ _ _ _ _ _ _ _ _ _ _ _ _)
    · rw [Dat.leavesExact_idle (dats m 0 c) 4 t (idle4 t (fun h => h1 ((hcondLast t).mp h))) (noFlush4 t (fun h => h1 ((hcondLast t).mp h)))]
      rw [outsAt_middle m c t h0 h1]
      unfold accMiddle; (try dsimp only)
      rw [PhiS_castSucc m c t, PhiS_pos m c _ _ hz]
      iintro ⟨HS, Ho, ⟨%d0, H0⟩, ⟨%d1, H1⟩, ⟨%d2, H2⟩, ⟨%d3, H3⟩, ⟨%d4, H4⟩⟩
      iapply ((bodyMiddle c (grid0.coords t) _ _ _ _ _ _ _ _ _ _ _ _ (fun h => h0 ((hcondFirst t).mp h)) (fun h => h1 ((hcondLast t).mp h)) (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS]
      · unfold owns; iexists _; isplitr
        swap; · iexact HS
        ipureintro; exact View.read_writes_of_cover _ _ _ _ _ (accCoverMiddle c _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region — the accumulator at anything — is the invariant before the first point. -/
theorem hin (c : Dev nD) : (Pipeline.scopedRest spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the accumulator's named contents are forgotten. -/
theorem hout (c : Dev nD) : (dats m 0 c).Φ (Fin.last cfg0.N) ⊢ (Pipeline.scopedRest spec0 c : sProp 𝕄) := by
  have ht : (Fin.last cfg0.N).val ≠ 0 := by rw [Fin.val_last]; have : cfg0.N = 256 := N_0; omega
  rw [show (dats m 0 c).Φ (Fin.last cfg0.N) = PhiS m c (Fin.last cfg0.N).val (Nat.le_of_lt_succ (Fin.last cfg0.N).isLt) from rfl, PhiS_pos m c _ _ ht, scopedRest_eq]
  iintro HS
  iexists _; iexact HS

end Cert.KernelIdeal.Region

end
-- ==== Proof.Ideal.Launch.lean ====
/-
  The pair-sum region launched inside @main: the host operations before it have run, the region's five windows are
  dealt the four arrays behind them (the class-1 probabilities are read through two windows, each holding half of the
  array's share), the region runs, and the six host operations after it (the count of positives, the division of the
  kernel's sum by it) run from the region's exit. The run ends with every window's array at what the proof data
  compute and every other unscoped buffer at what the later host operations leave from the region-entry contents with
  the output array at the kernel's result.
-/
import proofs.«103627_j80530636800492_1_alg».proof.Proof.Ideal.Setup
import Idealize.ShloMosaic.Lib.Pipeline.Launch
import Idealize.ShloMosaic.Lib.Pipeline.FrameSuffix
import Idealize.ShloMosaic.Lib.StableHlo.Run

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

set_option Elab.async false

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers after the later host lines -/

/-- The buffers after the later host lines run from the region-entry contents with the output array at `o`. -/
def withOut (c : Dev nD) (W : Valuation τ sig (Elt F)) (o : Buf (Elt F) ((c.tc : Thread nD τ).loc main_v22)) : Valuation τ sig (Elt F) :=
  Function.update W (Proc.devRef .tc main_v22) o

/-- What core `c`'s buffer `b` holds when @main returns, the kernel having left `o c` in its output array. -/
def tailV (o : (c : Dev nD) → Buf (Elt F) ((c.tc : Thread nD τ).loc main_v22)) (c : Dev nD) (b : Ref sig .tc) :
    Buf (Elt F) ((c.tc : Thread nD τ).loc b) :=
  StableHlo.after hostOps1 (withOut c (V0 m c) (o c)) (Proc.devRef .tc b)

theorem withOut_out (c : Dev nD) (W : Valuation τ sig (Elt F)) (o : Buf (Elt F) ((c.tc : Thread nD τ).loc main_v22)) :
    withOut c W o (Proc.devRef .tc main_v22) = o := Function.update_self ..

theorem withOut_of_ne (c : Dev nD) (W : Valuation τ sig (Elt F)) (o : Buf (Elt F) ((c.tc : Thread nD τ).loc main_v22))
    (r : Ref sig .tc) (h : r ≠ main_v22) : withOut c W o (Proc.devRef .tc r) = W (Proc.devRef .tc r) :=
  Function.update_of_ne (StableHlo.devRef_ne_of_ne h) ..

theorem mem_restRefs_arg0 : main_arg0 ∈ Pipeline.restRefs sig spec0 := Pipeline.mem_restRefs_of _ (by decide) (by decide)
theorem mem_restRefs_arg1 : main_arg1 ∈ Pipeline.restRefs sig spec0 := Pipeline.mem_restRefs_of _ (by decide) (by decide)
theorem mem_restRefs_v26 : main_v26 ∈ Pipeline.restRefs sig spec0 := Pipeline.mem_restRefs_of _ (by decide) (by decide)

/-- The references the host operations before the region write, -/
abbrev hostOps0_W : List (Ref sig .tc) :=
  [main_cst, main_v0, main_cst_0, main_v1, main_v2, main_v3, main_v4, main_v5, main_v6, main_cst_1, main_v7, main_v8, main_v9, main_v10,
   main_v11, main_v12, main_c, main_v13, main_v14, main_v15, main_c_2, main_v16, main_v17, main_v18, main_v19, main_v20, main_v21]
/-- and those after it. -/
abbrev hostOps1_W : List (Ref sig .tc) := [main_cst_3, main_v23, main_v24, main_cst_4, main_v25, main_v26]

theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.reshape_writes,
    Finset.singleton_subset_iff, List.mem_toFinset]
  repeat' apply And.intro
  all_goals exact List.mem_map_of_mem (by decide)
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.reshape_writes,
    Finset.singleton_subset_iff, List.mem_toFinset]
  repeat' apply And.intro
  all_goals exact List.mem_map_of_mem (by decide)

/-- A buffer no later host line writes, and not the output array, holds at the return what the region found in it. -/
theorem tailV_of (o : (c : Dev nD) → Buf (Elt F) ((c.tc : Thread nD τ).loc main_v22)) (c : Dev nD) (r : Ref sig .tc)
    (h : r ∉ hostOps1_W) (h' : r ≠ main_v22) : tailV m o c r = V m c r := by
  unfold tailV
  rw [StableHlo.after_of_writes_sub hostOps1 _ hostOps1_writes h, withOut_of_ne c _ _ r h']

/-- A buffer no earlier host line writes is found by the region as launched. -/
theorem V_of (c : Dev nD) (r : Ref sig .tc) (h : r ∉ hostOps0_W) : V m c r = m ((c.tc : Thread nD τ).loc r) := by
  unfold V V0
  rw [List.flatten_cons, List.flatten_nil, List.append_nil, StableHlo.after_of_writes_sub hostOps0 _ hostOps0_writes h]

theorem tailV_arg0 (o : (c : Dev nD) → Buf (Elt F) ((c.tc : Thread nD τ).loc main_v22)) (c : Dev nD) :
    tailV m o c main_arg0 = m ((c.tc : Thread nD τ).loc main_arg0) :=
  (tailV_of m o c main_arg0 (by decide) (by decide)).trans (V_of m c main_arg0 (by decide))
theorem tailV_arg1 (o : (c : Dev nD) → Buf (Elt F) ((c.tc : Thread nD τ).loc main_v22)) (c : Dev nD) :
    tailV m o c main_arg1 = m ((c.tc : Thread nD τ).loc main_arg1) :=
  (tailV_of m o c main_arg1 (by decide) (by decide)).trans (V_of m c main_arg1 (by decide))

theorem tailV_v26 (o : (c : Dev nD) → Buf (Elt F) ((c.tc : Thread nD τ).loc main_v22)) (c : Dev nD) :
    tailV m o c main_v26 = Host.divf (shapeCast S_ (o c) shapeCasts_S1x1_S_)
      (maximumf (Host.reduceAdd (V m c main_v15) (constant S_ .f32 0x00000000#32) reducesTo_S16384_S_d0 h_S_) (constant S_ .f32 0x3F800000#32)) := by
  unfold tailV
  open StableHlo in after_results
  rw [withOut_out, withOut_of_ne c _ _ main_v15 (by decide)]
  rfl

/-! ## The windows' arrays, one by one -/

/-- The proof data's `arrays`, window by window: each window's array is a whole buffer, the four inputs held at the
    shares the proof data name, the output at the full share. -/
theorem arrays_open (c : Dev nD) (dat : Pipeline.Dat τ (Elt F) Unit ℕ (UR sig nD τ) ℕ cfg0 c)
    (G : (w : Fin cfg0.W) → Buf (Elt F) ((cfg0.win w).arr.view.loc (c.tc : Thread nD τ))) :
    (dat.arrays G : sProp 𝕄) = iprop(
      (((c.tc : Thread nD τ).loc main_v19) ↦{dat.q 0} G 0) ∗ (((c.tc : Thread nD τ).loc main_v20) ↦{dat.q 1} G 1)
      ∗ (((c.tc : Thread nD τ).loc main_v19) ↦{dat.q 2} G 2) ∗ (((c.tc : Thread nD τ).loc main_v21) ↦{dat.q 3} G 3)
      ∗ (((c.tc : Thread nD τ).loc main_v22) ↦{fullShare} G 4)) := by
  unfold Dat.arrays
  rw [bigSep_congr (Ψ := fun w => (((c.tc : Thread nD τ).loc (Pipeline.arrRef spec0 w)) ↦{dat.share w} G w : sProp 𝕄))
    (fun w _ => by rw [(arr_whole0 w).set_eq_univ]), bigSep_W0]
  rfl

/-- The distinct buffers behind the five windows are four. -/
theorem arrBufs_open (c : Dev nD) (W : (b : Ref sig .tc) → Buf (Elt F) ((c.tc : Thread nD τ).loc b)) :
    (Pipeline.arrBufs spec0 c W : sProp 𝕄) = iprop(
      (((c.tc : Thread nD τ).loc main_v19) ↦{fullShare} W main_v19) ∗ (((c.tc : Thread nD τ).loc main_v20) ↦{fullShare} W main_v20)
      ∗ (((c.tc : Thread nD τ).loc main_v21) ↦{fullShare} W main_v21) ∗ (((c.tc : Thread nD τ).loc main_v22) ↦{fullShare} W main_v22)) := by
  unfold Pipeline.arrBufs
  rw [show Finset.univ.image (Pipeline.arrRef spec0) = {main_v19, main_v20, main_v21, main_v22} from by decide,
    bigSep_insert (by decide), bigSep_insert (by decide), bigSep_insert (by decide), bigSep_singleton]
  rfl

/-- The four buffers behind the five windows, each whole at its region-entry contents, make the proof data's `arrays` at
    entry: the array two windows read is split in two halves of its share, one per window. -/
theorem hsplit_of (c : Dev nD) (dat : Pipeline.Dat τ (Elt F) Unit ℕ (UR sig nD τ) ℕ cfg0 c)
    (hq0 : dat.q 0 = fullShare.left) (hq2 : dat.q 2 = fullShare.right) (hq1 : dat.q 1 = fullShare) (hq3 : dat.q 3 = fullShare)
    (hA : ∀ w, dat.A w = V m c (Pipeline.arrRef spec0 w)) :
    (Pipeline.arrBufs spec0 c (V m c) : sProp 𝕄) ⊢ dat.arrays (dat.arrAt · 0) := by
  rw [arrays_open, hq0, hq1, hq2, hq3, arrBufs_open]
  simp only [Dat.arrAt, hA]
  iintro ⟨H19, H20, H21, H22⟩
  ihave H19' := (pointsTo_share (PosShare.mem_left_op_right fullShare)).1 $$ H19
  icases H19' with ⟨Ha, Hb⟩
  isplitl [Ha]; · iexact Ha
  isplitl [H20]; · iexact H20
  isplitl [Hb]; · iexact Hb
  isplitl [H21]; · iexact H21
  iexact H22

/-! ## The later host lines -/

/-- The device buffers the later host lines run within: the output array and the buffers that bypass the region. -/
def tailS : Finset (DevRef τ sig) :=
  (insert main_v22 (Pipeline.restRefs sig spec0)).map ⟨Proc.devRef (sig := sig) .tc, Proc.devRef_injective _⟩

/-- The output array is a window's: it does not bypass the region. -/
theorem out_not_mem_restRefs : main_v22 ∉ Pipeline.restRefs sig spec0 := fun h =>
  (Finset.mem_sdiff.mp h).2 (Finset.mem_image.mpr ⟨4, Finset.mem_univ _, rfl⟩)

/-- Those buffers held at a valuation: the output array, and the bypassing buffers. -/
theorem held_tailS (c : Dev nD) (Wv : Valuation τ sig (Elt F)) :
    (StableHlo.held (c.tc : Thread nD τ) tailS Wv : sProp 𝕄)
      = iprop((((c.tc : Thread nD τ).loc main_v22) ↦{fullShare} Wv (Proc.devRef .tc main_v22))
          ∗ Pipeline.unscopedRest spec0 c (fun b => Wv (Proc.devRef .tc b))) := by
  unfold StableHlo.held tailS Pipeline.unscopedRest
  rw [bigSep_map, bigSep_insert out_not_mem_restRefs]
  rfl

theorem mem_tailS_out : Proc.devRef .tc main_v22 ∈ tailS := Finset.mem_map_of_mem _ (Finset.mem_insert_self _ _)
theorem mem_tailS_of (r : Ref sig .tc) (hs : r.isScoped = false) (ha : ∀ w, (spec0 w).arr.view.ref ≠ r) :
    Proc.devRef .tc r ∈ tailS :=
  Finset.mem_map_of_mem _ (Finset.mem_insert_of_mem (Pipeline.mem_restRefs_of r hs ha))

/-- Every later host line touches only the output array and bypassing buffers: none names an input array of the region. -/
theorem hostOps1_tailS : (hostOps1 : List (HloOp τ sig (Elt F))).Forall fun op => op.bufs ⊆ tailS := by
  simp only [List.Forall, StableHlo.nullary_bufs, StableHlo.binary_bufs, StableHlo.reshape_bufs, Finset.insert_subset_iff,
    Finset.singleton_subset_iff]
  repeat' apply And.intro
  all_goals first | exact mem_tailS_out | exact mem_tailS_of _ (by decide) (by decide)

theorem unscopedRest_congr (c : Dev nD) {W W' : (b : Ref sig .tc) → Buf (Elt F) ((c.tc : Thread nD τ).loc b)}
    (h : ∀ b ∈ Pipeline.restRefs sig spec0, W b = W' b) :
    (Pipeline.unscopedRest spec0 c W : sProp 𝕄) = Pipeline.unscopedRest spec0 c W' := by
  unfold Pipeline.unscopedRest
  exact bigSep_congr fun b hb => by rw [h b hb]

/-- The buffers the later host lines run within, at the region's exit: the output array at the kernel's result, the
    bypassing buffers as the region found them. -/
theorem held_entry (c : Dev nD) (o : Buf (Elt F) ((c.tc : Thread nD τ).loc main_v22)) :
    (StableHlo.held (c.tc : Thread nD τ) tailS (withOut c (V0 m c) o) : sProp 𝕄)
      = iprop((((c.tc : Thread nD τ).loc main_v22) ↦{fullShare} o) ∗ Pipeline.unscopedRest spec0 c (V m c)) := by
  rw [held_tailS, withOut_out,
    unscopedRest_congr c (W := fun b => withOut c (V0 m c) o (Proc.devRef .tc b)) (W' := V m c)
      (fun b hb => withOut_of_ne c _ _ b (fun e => out_not_mem_restRefs (e ▸ hb)))]

/-- The same after the lines: no line writes the output array. -/
theorem held_exit (o : (c : Dev nD) → Buf (Elt F) ((c.tc : Thread nD τ).loc main_v22)) (c : Dev nD) :
    (StableHlo.held (c.tc : Thread nD τ) tailS (StableHlo.after hostOps1 (withOut c (V0 m c) (o c))) : sProp 𝕄)
      = iprop((((c.tc : Thread nD τ).loc main_v22) ↦{fullShare} o c) ∗ Pipeline.unscopedRest spec0 c (tailV m o c)) := by
  rw [held_tailS, StableHlo.after_of_writes_sub (r := main_v22) hostOps1 _ hostOps1_writes (by decide), withOut_out]
  rfl

set_option backward.isDefEq.respectTransparency.types false in
/-- The later host lines, from the region's exit: they run within the output array (window 4's piece of `arrays`, whole
    at the full share) and the bypassing buffers, the four input pieces framed; none writes the output array, so
    `arrays` comes back as it was, and the bypassing buffers hold `tailV`. -/
theorem tail_run (dats : (p : Fin 1) → (c : Dev nD) → Pipeline.Dat τ (Elt F) Unit ℕ (UR sig nD τ) ℕ (cfgs p) c)
    (c : Dev nD) (Q' : PUnit → sProp 𝕄) :
    iprop((iprop((dats 0 c).arrays ((dats 0 c).arrAt · cfg0.N)
              ∗ Pipeline.unscopedRest spec0 c (tailV m (fun c => (dats 0 c).arrAt 4 cfg0.N) c)) -∗ Q' ⟨⟩)
        ∗ boundary (c.tc : Thread nD τ) ∗ (dats 0 c).arrays ((dats 0 c).arrAt · cfg0.N) ∗ Pipeline.unscopedRest spec0 c (V m c))
      ⊢ wp frame (wpE (Pipeline.defs (fun q => Cfg.toPCfg (Val := Elt F) (cfgs q)) defs₀) (Variants.lift Variants.none) (c.tc : Thread nD τ) none)
          Set.univ (Pipeline.chain [StableHlo.seq hostOps1]) Q' := by
  rw [arrays_open, Pipeline.chain_cons, Pipeline.chain_nil]
  refine (show _ ⊢ iprop((iprop((((c.tc : Thread nD τ).loc main_v22) ↦{fullShare} (dats 0 c).arrAt 4 cfg0.N)
              ∗ Pipeline.unscopedRest spec0 c (tailV m (fun c => (dats 0 c).arrAt 4 cfg0.N) c)) -∗ Q' ⟨⟩)
          ∗ boundary (c.tc : Thread nD τ)
          ∗ StableHlo.held (c.tc : Thread nD τ) tailS (withOut c (V0 m c) ((dats 0 c).arrAt 4 cfg0.N))) from by
    rw [held_entry]
    iintro ⟨Hk, Hb, ⟨H0, H1, H2, H3, H4⟩, HU⟩
    isplitl [Hk H0 H1 H2 H3]
    · iintro ⟨H4, HU⟩
      iapply Hk
      isplitr [HU]
      · isplitl [H0]; · iexact H0
        isplitl [H1]; · iexact H1
        isplitl [H2]; · iexact H2
        isplitl [H3]; · iexact H3
        iexact H4
      · iexact HU
    isplitl [Hb]; · iexact Hb
    isplitl [H4]; · iexact H4
    iexact HU).trans ?_
  iintro ⟨Hk, Hb⟩
  iapply (StableHlo.wp_seq (Variants.lift Variants.none) none Set.univ c tailS _ hostOps1
    (List.forall_iff_forall_mem.mp hostOps1_tailS) (List.forall_iff_forall_mem.mp hostOps1_fresh)
    (withOut c (V0 m c) ((dats 0 c).arrAt 4 cfg0.N))) $$ Hb
  iintro Hb
  rw [wp_pure, held_exit m (fun c => (dats 0 c).arrAt 4 cfg0.N) c]
  imodintro
  iapply Hk
  icases Hb with ⟨-, H⟩
  iexact H

/-! ## The run -/

/-- THE RUN of @main around the pair-sum region. The proof data deal the class-1 probabilities' array to windows 0 and 2
    in two halves of its share and hold the two masks' arrays whole; their invariant is entered from the accumulator at
    anything and returns it. The run ends with every window's array at what the proof data compute and every other
    unscoped buffer at what the later host lines leave (`tailV`) from the kernel's result in the output array. -/
theorem run_region (dats : (p : Fin 1) → (c : Dev nD) → Pipeline.Dat τ (Elt F) Unit ℕ (UR sig nD τ) ℕ (cfgs p) c)
    (hq0 : ∀ c, (dats 0 c).q 0 = fullShare.left) (hq2 : ∀ c, (dats 0 c).q 2 = fullShare.right)
    (hq1 : ∀ c, (dats 0 c).q 1 = fullShare) (hq3 : ∀ c, (dats 0 c).q 3 = fullShare)
    (hA : ∀ c w, (dats 0 c).A w = V m c (Pipeline.arrRef spec0 w))
    (hbody : ∀ c, Pipeline.BodyObligationLoose (dats 0 c) defs₀ Variants.none () Set.univ)
    (howed : ∀ c t, (dats 0 c).owed t = 0)
    (hin : ∀ c, (Pipeline.scopedRest spec0 c : sProp 𝕄) ⊢ (dats 0 c).Φ 0)
    (hout : ∀ c, (dats 0 c).Φ (Fin.last cfg0.N) ⊢ (Pipeline.scopedRest spec0 c : sProp 𝕄)) :
    θ_run defs (onTc (τ := τ) (main (F := F))) (s₀ m ρ) (fun r => ∀ c : Dev nD,
      (∀ w, r.2.mem ((spec0 w).arr.view.loc (c.tc : Thread nD τ)) = (dats 0 c).arrAt w cfg0.N)
      ∧ ∀ b ∈ Pipeline.restRefs sig spec0, r.2.mem ((c.tc : Thread nD τ).loc b) = tailV m (fun c => (dats 0 c).arrAt 4 cfg0.N) c b) := by
  classical
  exact Pipeline.θ_run_region_noSem_pf_tail (fun q => (cfgs q).toPCfg) (fun q => (cfgs q).toPCfg_adm) dats () cellOf_inj 0 winFacts₀0
    (Pipeline.PreFacts.none _) emb₁ defs₀ Variants.none m ρ main (fun _ => Pipeline.chain [StableHlo.seq hostOps1])
    hbody block_pos0 arr_whole0 stage_whole0 howed
    (initOf (Pipeline.cells cfgs cellOf_inj) (Pipeline.launchToks cfgs cellOf_inj)) .rfl (V m) (hmain m Variants.none)
    (fun c => hsplit_of m c (dats 0 c) (hq0 c) (hq2 c) (hq1 c) (hq3 c) (hA c))
    (fun _ k => k.elim0)
    (X := fun _ => iprop(emp)) (Y := fun _ => iprop(emp))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c
      (tailV m (fun c => (dats 0 c).arrAt 4 cfg0.N) c))
    (hX := fun c => by
      rw [Pipeline.unscopedRestP_none]
      iintro HU
      isplitr; · iempintro
      iexact HU)
    (hin := fun c => (show _ ⊢ (Pipeline.scopedRest spec0 c : sProp 𝕄) from by iintro ⟨-, -, H⟩; iexact H).trans (hin c))
    (hout := fun c => (hout c).trans (by
      iintro H
      isplitr; · iempintro
      iexact H))
    (htail := fun c Q' => tail_run m dats c Q')
    (QY := fun c s => ∀ b ∈ Pipeline.restRefs sig spec0,
      s.mem ((c.tc : Thread nD τ).loc b) = tailV m (fun c => (dats 0 c).arrAt 4 cfg0.N) c b)
    (hY := fun c s' => by
      iintro ⟨-, HU, HSI⟩
      unfold Pipeline.unscopedRest
      imodintro
      iapply (pointsTo_read_all (Pipeline.restRefs sig spec0) (fun b => (c.tc : Thread nD τ).loc b)
        (tailV m (fun c => (dats 0 c).arrAt 4 cfg0.N) c) s')
      isplitl [HU] <;> iassumption)
    (hQ := fun s h c => ⟨(h c).1, (h c).2.2⟩)

end Cert.KernelIdeal.Region

end
-- ==== Proof.Ideal.Frame.lean ====
/-
  The run of the program around the pair-sum region, and its frame: every weakly fair execution terminates without a
  fault; every array of the region ends at what the proof data compute for it, every other buffer at what the host
  lines after the region leave; in particular the two argument arrays end as they began.
-/
import proofs.«103627_j80530636800492_1_alg».proof.Proof.Ideal.BodyObligation
import proofs.«103627_j80530636800492_1_alg».proof.Proof.Ideal.Launch

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run with every final buffer named. -/
theorem run_main : θ_run defs (onTc (τ := τ) (main (F := F))) (s₀ m ρ) (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = tailV m (fun c => (dats m 0 c).arrAt 4 cfg0.N) c b) :=
  run_region m ρ (dats m) (fun _ => rfl) (fun _ => rfl) (fun _ => rfl) (fun _ => rfl) (A_eq m)
    (fun c => (body_obligation m c).loose) (fun _ _ => rfl) (hin m) (hout m)

/-- THE FRAME: the program runs to the end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_arg0 mem_restRefs_arg0).trans (tailV_arg0 m _ c),
       ((h c).2 main_arg1 mem_restRefs_arg1).trans (tailV_arg1 m _ c)⟩)
    (run_main m ρ)

end Cert.KernelIdeal.Region

end
-- ==== Proof.Ideal.PiecesAsPayloads.lean ====
/-
  What each control case of the body leaves in the accumulator and in the output's buffer, as the arithmetic of the
  blocks it loaded. The body's stores into a [1,1] buffer are each of the whole buffer, so reading the stored pieces
  back yields the payload of the last store. At the first point the accumulator is reset to zero, that zero is loaded
  back and the tile's sum is added to it; at every later point the tile's sum is added to the value the accumulator
  held on entry; at the last point the accumulator's new value is also copied to the output's buffer.
-/
import proofs.«103627_j80530636800492_1_alg».proof.Proof.Ideal.RegionData
import Idealize.ShloMosaic.Lib.Pipeline.Value

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The offset of a store of the whole [1,1] (or [1,1024]) block is zero in every axis. -/
theorem hz00 : (![0, 0] : Fin 2 → Nat) = fun _ => 0 := funext fun a => by fin_cases a <;> rfl

/-- At the first point the accumulator ends holding the tile's sum added to the zero it was reset to: the reset's
    store lies under the update's, which covers the buffer, and the update's loaded accumulator value is the zero
    read back. -/
theorem accFirst_eq (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : condFirst i) (hc1 : ¬condLast i)
    (x0 x1 x2 x3 : Vec F S1x1024 .f32) :
    accFirst c i arg2 harg2 arg3 harg3 arg4 harg4 arg5 harg5 arg6 harg6 arg7 harg7 hc0 hc1 x0 x1 x2 x3 = Gen.k0_pay2 x0 x1 x2 x3 (Gen.k0_pay1 (F := F)) := by
  unfold accFirst
  rw [View.read_writes_eq_canon _ _ _ (accCoverFirst c i arg2 harg2 arg3 harg3 arg4 harg4 arg5 harg5 arg6 harg6 arg7 harg7 hc0 hc1 x0 x1 x2 x3)]
  unfold bodyFirst
  dsimp only
  sl_unfold_words
  rw [View.canon_cons_unit_zero (S := S1x1) hz00, View.readCov_unit_zero (S := S1x1) _ hz00]
  simp only [View.readAt_eq_ld, harg2.read_unread, harg3.read_unread, harg4.read_unread, harg5.read_unread, View.ld_unit_zero (S := S1x1024) hz00]

/-- At a middle point the accumulator ends holding the tile's sum added to the value it held on entry. -/
theorem accMiddle_eq (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : ¬condLast i)
    (x0 x1 x2 x3 : Vec F S1x1024 .f32) (xs : Vec F S1x1 .f32) :
    accMiddle c i arg2 harg2 arg3 harg3 arg4 harg4 arg5 harg5 arg6 harg6 arg7 harg7 hc0 hc1 x0 x1 x2 x3 xs = Gen.k0_pay2 x0 x1 x2 x3 xs := by
  unfold accMiddle
  rw [View.read_writes_eq_canon _ _ _ (accCoverMiddle c i arg2 harg2 arg3 harg3 arg4 harg4 arg5 harg5 arg6 harg6 arg7 harg7 hc0 hc1 x0 x1 x2 x3 xs)]
  unfold bodyMiddle
  dsimp only
  sl_unfold_words
  rw [View.canon_unit_zero (S := S1x1) hz00]
  simp only [View.readAt_eq_ld, harg2.read_unread, harg3.read_unread, harg4.read_unread, harg5.read_unread, harg7.read_unread, View.ld_unit_zero (S := S1x1024) hz00, View.ld_unit_zero (S := S1x1) hz00]

/-- At the last point the accumulator ends holding the tile's sum added to the value it held on entry. -/
theorem accLast_eq (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : condLast i)
    (x0 x1 x2 x3 : Vec F S1x1024 .f32) (xs : Vec F S1x1 .f32) :
    accLast c i arg2 harg2 arg3 harg3 arg4 harg4 arg5 harg5 arg6 harg6 arg7 harg7 hc0 hc1 x0 x1 x2 x3 xs = Gen.k0_pay2 x0 x1 x2 x3 xs := by
  unfold accLast
  rw [View.read_writes_eq_canon _ _ _ (accCoverLast c i arg2 harg2 arg3 harg3 arg4 harg4 arg5 harg5 arg6 harg6 arg7 harg7 hc0 hc1 x0 x1 x2 x3 xs)]
  unfold bodyLast
  dsimp only
  sl_unfold_words
  rw [View.canon_unit_zero (S := S1x1) hz00]
  simp only [View.readAt_eq_ld, harg2.read_unread, harg3.read_unread, harg4.read_unread, harg5.read_unread, harg7.read_unread, View.ld_unit_zero (S := S1x1024) hz00, View.ld_unit_zero (S := S1x1) hz00]

/-- At the last point the output's buffer ends holding the accumulator's new value: the one store into it is of the
    accumulator loaded back after its update. -/
theorem outLast_eq (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : condLast i)
    (x0 x1 x2 x3 : Vec F S1x1024 .f32) (xs : Vec F S1x1 .f32) :
    outLast c i arg2 harg2 arg3 harg3 arg4 harg4 arg5 harg5 arg6 harg6 arg7 harg7 hc0 hc1 x0 x1 x2 x3 xs = Gen.k0_pay2 x0 x1 x2 x3 xs := by
  unfold outLast
  rw [View.read_writes_eq_canon _ _ _ (outCoverLast c i arg2 harg2 arg3 harg3 arg4 harg4 arg5 harg5 arg6 harg6 arg7 harg7 hc0 hc1 x0 x1 x2 x3 xs)]
  unfold bodyLast
  dsimp only
  sl_unfold_words
  rw [View.canon_unit_zero (S := S1x1) hz00]
  simp only [View.readAt_eq_ld, harg2.read_unread, harg3.read_unread, harg4.read_unread, harg5.read_unread, harg7.read_unread, View.readCov_unit_zero (S := S1x1) _ hz00, View.ld_unit_zero (S := S1x1024) hz00, View.ld_unit_zero (S := S1x1) hz00]

end Cert.KernelIdeal.Region

end
-- ==== Proof.PairSumSpec.lean ====
/-
  The pairwise ranking sum as plain mathematics over the extended reals. For a score vector `p` and two 0/1 masks
  `pos`, `neg` of length 16384, the ordered pair (a, b) contributes max(p b − p a + δ, 0) · (pos a · neg b). The kernel
  visits the 16384 × 16384 pairs as a 16 × 16 grid of 1024 × 1024 tiles in row-major order, sums each tile row by row and
  adds the tile sums into one running total that starts at zero; the reference sums all pairs at once.
-/
import Idealize.ShloMosaic.PureOps.Ideal
import Idealize.ShloMosaic.Lib.ValueIdx

noncomputable section

namespace Cert.PairSum

open Idealize.ShloMosaic

/-- The contribution of the ordered pair (a, b): the hinge of the score difference, kept only for a positive `a` and a
    negative `b`. -/
def term (δ : EReal) (p pos neg : Fin 16384 → EReal) (a b : Fin 16384) : EReal :=
  max (p b - p a + δ) 0 * (pos a * neg b)

/-- Row `r` of the tile at grid point `n` (row-major over 16 × 16): the tile's row block is `n / 16`. -/
def rowOf (n : ℕ) (r : Fin 1024) : Fin 16384 := ⟨1024 * (n / 16 % 16) + r.val, by have := r.isLt; omega⟩
/-- Column `c` of the tile at grid point `n`: the tile's column block is `n % 16`. -/
def colOf (n : ℕ) (c : Fin 1024) : Fin 16384 := ⟨1024 * (n % 16) + c.val, by have := c.isLt; omega⟩

/-- The sum of `f` over the tile at grid point `n`, row by row. -/
def tile (f : Fin 16384 → Fin 16384 → EReal) (n : ℕ) : EReal :=
  ∑ r : Fin 1024, ∑ c : Fin 1024, f (rowOf n r) (colOf n c)

/-- The running total after the tiles of points `0 … n`: it starts from zero at the first point. -/
def accAt (f : Fin 16384 → Fin 16384 → EReal) : ℕ → EReal
  | 0 => 0 + tile f 0
  | n + 1 => accAt f n + tile f (n + 1)

end Cert.PairSum

end
-- ==== Proof.Ideal.BlockReads.lean ====
/-
  The four input blocks of the pair-sum region at a grid point, read off the arrays they are cut from. The grid is
  16 × 16 in row-major order, so point `t` has coordinates (t / 16, t % 16). Each input array is one row of 16384
  entries cut into 16 blocks of 1024: the two "row" windows (the scores and the positive mask) take block t / 16, the two
  "column" windows (the scores again and the negative mask) take block t % 16. Entry `r` of block `b` is entry
  1024 · b + r of the array: a block's coordinate is its block index times the block size plus the coordinate inside.
-/
import proofs.«103627_j80530636800492_1_alg».proof.Proof.Ideal.Setup
import proofs.«103627_j80530636800492_1_alg».proof.Proof.PairSumSpec
import Idealize.ShloMosaic.Lib.ValueIdx
import Idealize.ShloMosaic.Lib.Pipeline.Value

set_option maxRecDepth 16384

noncomputable section

namespace Cert.KernelIdeal.Region

open Idealize.ShloMosaic Idealize.ShloMosaic.TcCoe
open Idealize.ShloMosaic.Pipeline (Dat Cfg Window)
open Cert.KernelIdeal Cert.KernelIdeal.Gen

variable {F : FTy → Type} [FloatOps F]

variable (m : (ℓ : Loc nD τ sig) → Buf (Elt F) ℓ)

/-! ## The block indices over the grid -/

/-- The row windows (0 and 1) sit at block (0, t / 16). -/
theorem idx_rows : ∀ t : Fin cfg0.N, win0_0.index t (0 : Fin 2) = 0 ∧ win0_0.index t (1 : Fin 2) = t.val / 16
    ∧ win0_1.index t (0 : Fin 2) = 0 ∧ win0_1.index t (1 : Fin 2) = t.val / 16 :=
  (by decide +kernel : ∀ t : Fin grid0.N, _)

/-- The column windows (2 and 3) sit at block (0, t % 16). -/
theorem idx_cols : ∀ t : Fin cfg0.N, win0_2.index t (0 : Fin 2) = 0 ∧ win0_2.index t (1 : Fin 2) = t.val % 16
    ∧ win0_3.index t (0 : Fin 2) = 0 ∧ win0_3.index t (1 : Fin 2) = t.val % 16 :=
  (by decide +kernel : ∀ t : Fin grid0.N, _)

/-! ## The four blocks -/

/-- The row block of the scores at point `t`. -/
abbrev rowScores (c : Dev nD) (t : Fin cfg0.N) : Vec F S1x1024 .f32 := iblk m c 0 t
/-- The row block of the positive mask. -/
abbrev rowMask (c : Dev nD) (t : Fin cfg0.N) : Vec F S1x1024 .f32 := iblk m c 1 t
/-- The column block of the scores. -/
abbrev colScores (c : Dev nD) (t : Fin cfg0.N) : Vec F S1x1024 .f32 := iblk m c 2 t
/-- The column block of the negative mask. -/
abbrev colMask (c : Dev nD) (t : Fin cfg0.N) : Vec F S1x1024 .f32 := iblk m c 3 t

/-- Entry `r` of the scores' row block is entry 1024 · (t / 16) + r of the score array. -/
theorem rowScores_apply (c : Dev nD) (t : Fin cfg0.N) (r : Fin 1024) :
    rowScores m c t (ValueIdx.ix2 (0 : Fin 1) r)
      = (V m c main_v19 : S1x16384.Idx → Elt F .f32) (ValueIdx.ix2 (0 : Fin 1) (Cert.PairSum.rowOf t.val r)) := by
  obtain ⟨e0, e1, -, -⟩ := idx_rows t
  have ht : t.val < 256 := t.isLt
  show (V m c main_v19 : S1x16384.Idx → Elt F .f32) (((cfg0.win 0).blk t).view.emb (ValueIdx.ix2 (0 : Fin 1) r)) = _
  refine congrArg _ ?_
  funext a; apply Fin.ext
  match a with
  | ⟨0, _⟩ => show win0_0.index t (0 : Fin 2) * 1 + 1 * (0 : Nat) = 0; omega
  | ⟨1, _⟩ => show win0_0.index t (1 : Fin 2) * 1024 + 1 * r.val = 1024 * (t.val / 16 % 16) + r.val; omega

/-- Entry `r` of the positive mask's row block is entry 1024 · (t / 16) + r of the mask array. -/
theorem rowMask_apply (c : Dev nD) (t : Fin cfg0.N) (r : Fin 1024) :
    rowMask m c t (ValueIdx.ix2 (0 : Fin 1) r)
      = (V m c main_v20 : S1x16384.Idx → Elt F .f32) (ValueIdx.ix2 (0 : Fin 1) (Cert.PairSum.rowOf t.val r)) := by
  obtain ⟨-, -, e0, e1⟩ := idx_rows t
  have ht : t.val < 256 := t.isLt
  show (V m c main_v20 : S1x16384.Idx → Elt F .f32) (((cfg0.win 1).blk t).view.emb (ValueIdx.ix2 (0 : Fin 1) r)) = _
  refine congrArg _ ?_
  funext a; apply Fin.ext
  match a with
  | ⟨0, _⟩ => show win0_1.index t (0 : Fin 2) * 1 + 1 * (0 : Nat) = 0; omega
  | ⟨1, _⟩ => show win0_1.index t (1 : Fin 2) * 1024 + 1 * r.val = 1024 * (t.val / 16 % 16) + r.val; omega

/-- Entry `k` of the scores' column block is entry 1024 · (t % 16) + k of the score array. -/
theorem colScores_apply (c : Dev nD) (t : Fin cfg0.N) (k : Fin 1024) :
    colScores m c t (ValueIdx.ix2 (0 : Fin 1) k)
      = (V m c main_v19 : S1x16384.Idx → Elt F .f32) (ValueIdx.ix2 (0 : Fin 1) (Cert.PairSum.colOf t.val k)) := by
  obtain ⟨e0, e1, -, -⟩ := idx_cols t
  show (V m c main_v19 : S1x16384.Idx → Elt F .f32) (((cfg0.win 2).blk t).view.emb (ValueIdx.ix2 (0 : Fin 1) k)) = _
  refine congrArg _ ?_
  funext a; apply Fin.ext
  match a with
  | ⟨0, _⟩ => show win0_2.index t (0 : Fin 2) * 1 + 1 * (0 : Nat) = 0; omega
  | ⟨1, _⟩ => show win0_2.index t (1 : Fin 2) * 1024 + 1 * k.val = 1024 * (t.val % 16) + k.val; omega

/-- Entry `k` of the negative mask's column block is entry 1024 · (t % 16) + k of the mask array. -/
theorem colMask_apply (c : Dev nD) (t : Fin cfg0.N) (k : Fin 1024) :
    colMask m c t (ValueIdx.ix2 (0 : Fin 1) k)
      = (V m c main_v21 : S1x16384.Idx → Elt F .f32) (ValueIdx.ix2 (0 : Fin 1) (Cert.PairSum.colOf t.val k)) := by
  obtain ⟨-, -, e0, e1⟩ := idx_cols t
  show (V m c main_v21 : S1x16384.Idx → Elt F .f32) (((cfg0.win 3).blk t).view.emb (ValueIdx.ix2 (0 : Fin 1) k)) = _
  refine congrArg _ ?_
  funext a; apply Fin.ext
  match a with
  | ⟨0, _⟩ => show win0_3.index t (0 : Fin 2) * 1 + 1 * (0 : Nat) = 0; omega
  | ⟨1, _⟩ => show win0_3.index t (1 : Fin 2) * 1024 + 1 * k.val = 1024 * (t.val % 16) + k.val; omega

end Cert.KernelIdeal.Region

end
-- ==== Proof.LibTile.lean ====
/-
  Operations on a rank-2 tile read at an index given by coordinates: the two column forms of a
  keep-dimensions reduction (a vector as a column, a column spread along the rows), a sum along the rows
  or the columns as a sum over one coordinate, the column of row norms, and a matrix product with one
  contracted axis as a sum over that axis.
-/
import Idealize.ShloMosaic.Lib.ValueIdx
import Idealize.ShloMosaic.Lib.ValueLayout
import Idealize.ShloMosaic.Lib.Pipeline.Value
import Idealize.ShloMosaic.PureOps.Ideal.Laws

namespace Cert.Tile

open Idealize.ShloMosaic Idealize.ShloMosaic.ValueIdx

variable {α : Type}

/-! ## Layout -/

/-- An [a] array cast to [a, 1] reads, at (i, u), the operand at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column spread to [a, b] reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Sums along one axis -/

/-- The entries of each row of an [a, b] tile summed: at p, the sum over the b columns. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = 0x00000000#32) (p : Fin a) :
    multiReduction (F := Ideal) .add [1] ⟨1, ![a]⟩ src 0x00000000#32 h hφ hacc (ix1 p)
      = ∑ k : Fin b, src (ix2 p k) := by
  refine (Ideal.multiReduction_add_single src 0x00000000#32 h hφ hacc (ix1 p)).trans ?_
  exact Finset.sum_congr rfl fun k _ => congrArg src (funext fun ax => Fin.ext (by
    match ax with
    | ⟨0, _⟩ => rfl
    | ⟨1, _⟩ => rfl))

/-- The entries of each column of an [a, b] tile summed: at q, the sum over the a rows. -/
theorem colSum_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = 0x00000000#32) (q : Fin b) :
    multiReduction (F := Ideal) .add [0] ⟨1, ![b]⟩ src 0x00000000#32 h hφ hacc (ix1 q)
      = ∑ k : Fin a, src (ix2 k q) := by
  refine (Ideal.multiReduction_add_single src 0x00000000#32 h hφ hacc (ix1 q)).trans ?_
  exact Finset.sum_congr rfl fun k _ => congrArg src (funext fun ax => Fin.ext (by
    match ax with
    | ⟨0, _⟩ => rfl
    | ⟨1, _⟩ => rfl))

/-- The row sums kept as a column: at (p, u), the sum over the b columns of row p. -/
theorem rowSumCol_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩) (p : Fin a) (u : Fin 1) :
    shapeCast ⟨2, ![a, 1]⟩ (multiReduction (F := Ideal) .add [1] ⟨1, ![a]⟩ src 0x00000000#32 h hφ hacc) hc (ix2 p u)
      = ∑ k : Fin b, src (ix2 p k) :=
  (shapeCast_a_a1_apply _ hc p u).trans (rowSum_apply src h hφ hacc p)

/-- A square root read at an index. -/
theorem sqrt_apply {s : Shape} {φ : FTy} (v : FVec Ideal s φ) (i : s.Idx) : sqrt v i = Ideal.sqrt (v i) := rfl

/-- The column of Euclidean row norms spread along rows of length c: at (p, x), the square root of
    the sum of the squares of row p. -/
theorem normCol_apply {a b c : ℕ} (X : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, c]⟩) (p : Fin a) (x : Fin c) :
    broadcastTo ⟨2, ![a, c]⟩
        (sqrt (shapeCast ⟨2, ![a, 1]⟩ (multiReduction (F := Ideal) .add [1] ⟨1, ![a]⟩ (mulf X X) 0x00000000#32 h hφ hacc) hc))
        hb (ix2 p x)
      = Ideal.sqrt (∑ k : Fin b, X (ix2 p k) * X (ix2 p k)) :=
  (broadcastTo_a1_ab_apply _ hb p x).trans
    (congrArg Ideal.sqrt (rowSumCol_apply (mulf X X) h hφ hacc hc p 0))

/-! ## A matrix product with one contracted axis -/

theorem lhs_plain_0 {M K N : ℕ} (j : (⟨2, ![M, N]⟩ : Shape).Idx) (q : (DotDims.plain M K N).contr.Idx) :
    ((DotDims.plain M K N).lhsIdx j q 0).val = (j 0).val := rfl
theorem lhs_plain_1 {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
theorem rhs_plain_0 {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
theorem rhs_plain_1 {M K N : ℕ} (j : (⟨2, ![M, N]⟩ : Shape).Idx) (q : (DotDims.plain M K N).contr.Idx) :
    ((DotDims.plain M K N).rhsIdx j q 1).val = (j 1).val := rfl

/-- An [M, K] by [K, N] product into the zero accumulator reads, at (p, q), the sum over the K
    contracted coordinates of the left operand at (p, x) times the right at (x, q). -/
theorem matmul_plain_apply {M K N : ℕ} (prec : Option ContractPrecision)
    (lhs : FVec Ideal ⟨2, ![M, K]⟩ .f32) (rhs : FVec Ideal ⟨2, ![K, N]⟩ .f32) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) := by
  refine (Ideal.matmul_constant_zero_apply (DotDims.plain M K N) prec lhs rhs (ix2 p q)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_plain_0 _ _
      | ⟨1, _⟩ => exact (lhs_plain_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_plain_0 _ _).trans hk
      | ⟨1, _⟩ => exact rhs_plain_1 _ _)
  rw [el, er]

/-! ## The patterns of one layer -/

/-- A tile with each row divided by its Euclidean norm: at (p, x), the entry over the square root of
    the sum of the squares of row p. -/
theorem normalize_apply {a b : ℕ} (X : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, b]⟩) (p : Fin a) (x : Fin b) :
    divf X (broadcastTo ⟨2, ![a, b]⟩
        (sqrt (shapeCast ⟨2, ![a, 1]⟩ (multiReduction (F := Ideal) .add [1] ⟨1, ![a]⟩ (mulf X X) 0x00000000#32 h hφ hacc) hc))
        hb) (ix2 p x)
      = Ideal.div (X (ix2 p x)) (Ideal.sqrt (∑ k : Fin b, X (ix2 p k) * X (ix2 p k))) :=
  congrArg (Ideal.div (X (ix2 p x))) (normCol_apply X h hφ hacc hc hb p x)

/-- A dense layer with a rectifier and a multiplicative mask row, the weights given transposed:
    at (p, q), max (Σₓ X p x · WT x q + b q) 0 · mask q. -/
theorem dense_apply {M K N : ℕ} (prec : Option ContractPrecision)
    (X : FVec Ideal ⟨2, ![M, K]⟩ .f32) (WT : FVec Ideal ⟨2, ![K, N]⟩ .f32) (b mk : FVec Ideal ⟨2, ![1, N]⟩ .f32)
    (hw : (⟨2, ![K, N]⟩ : Shape).ShapeCasts ⟨2, ![K, N]⟩)
    (hb hm : (⟨2, ![1, N]⟩ : Shape).ShapeCasts ⟨2, ![1, N]⟩)
    (hbb hmb : (⟨2, ![1, N]⟩ : Shape).Broadcasts ⟨2, ![M, N]⟩) (p : Fin M) (q : Fin N) :
    mulf (maximumf
          (addf (matmul (F := Ideal) (DotDims.plain M K N) prec X (shapeCast ⟨2, ![K, N]⟩ WT hw)
                  (constant (F := Ideal) ⟨2, ![M, N]⟩ .f32 0x00000000#32))
                (broadcastTo ⟨2, ![M, N]⟩ (shapeCast ⟨2, ![1, N]⟩ b hb) hbb))
          (broadcast ⟨2, ![M, N]⟩ (Scalar.ofBits (F := Ideal) .f32 0x00000000#32)))
        (broadcastTo ⟨2, ![M, N]⟩ (shapeCast ⟨2, ![1, N]⟩ mk hm) hmb) (ix2 p q)
      = max ((∑ x : Fin K, X (ix2 p x) * WT (ix2 x q)) + b (ix2 (0 : Fin 1) q)) 0 * mk (ix2 (0 : Fin 1) q) :=
  congrArg₂ (· * ·)
    (congrArg₂ max
      (congrArg₂ (· + ·)
        ((matmul_plain_apply prec X _ p q).trans
          (Finset.sum_congr rfl fun x _ => congrArg (X (ix2 p x) * ·) (congrFun (shapeCast_self WT hw) (ix2 x q))))
        ((broadcastTo_1b_ab_apply _ hbb p q).trans (congrFun (shapeCast_self b hb) (ix2 (0 : Fin 1) q))))
      Ideal.ofBits_zero_f32)
    ((broadcastTo_1b_ab_apply _ hmb p q).trans (congrFun (shapeCast_self mk hm) (ix2 (0 : Fin 1) q)))

/-- The same without a mask: at (p, q), max (Σₓ X p x · WT x q + b q) 0. -/
theorem denseOut_apply {M K N : ℕ} (prec : Option ContractPrecision)
    (X : FVec Ideal ⟨2, ![M, K]⟩ .f32) (WT : FVec Ideal ⟨2, ![K, N]⟩ .f32) (b : FVec Ideal ⟨2, ![1, N]⟩ .f32)
    (hw : (⟨2, ![K, N]⟩ : Shape).ShapeCasts ⟨2, ![K, N]⟩)
    (hb : (⟨2, ![1, N]⟩ : Shape).ShapeCasts ⟨2, ![1, N]⟩)
    (hbb : (⟨2, ![1, N]⟩ : Shape).Broadcasts ⟨2, ![M, N]⟩) (p : Fin M) (q : Fin N) :
    maximumf
          (addf (matmul (F := Ideal) (DotDims.plain M K N) prec X (shapeCast ⟨2, ![K, N]⟩ WT hw)
                  (constant (F := Ideal) ⟨2, ![M, N]⟩ .f32 0x00000000#32))
                (broadcastTo ⟨2, ![M, N]⟩ (shapeCast ⟨2, ![1, N]⟩ b hb) hbb))
          (broadcast ⟨2, ![M, N]⟩ (Scalar.ofBits (F := Ideal) .f32 0x00000000#32)) (ix2 p q)
      = max ((∑ x : Fin K, X (ix2 p x) * WT (ix2 x q)) + b (ix2 (0 : Fin 1) q)) 0 :=
  congrArg₂ max
    (congrArg₂ (· + ·)
      ((matmul_plain_apply prec X _ p q).trans
        (Finset.sum_congr rfl fun x _ => congrArg (X (ix2 p x) * ·) (congrFun (shapeCast_self WT hw) (ix2 x q))))
      ((broadcastTo_1b_ab_apply _ hbb p q).trans (congrFun (shapeCast_self b hb) (ix2 (0 : Fin 1) q))))
    Ideal.ofBits_zero_f32

/-- The sum of the squares of every entry of a tile, kept as a [1, 1] value. -/
theorem totalSq_apply {a b : ℕ} (Y : FVec Ideal ⟨2, ![a, b]⟩ .f32)
    (h1 : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (h0 : Shape.Reduces ⟨2, ![a, 1]⟩ [0] ⟨1, ![1]⟩) (hφ' : FKind.Formats .f32)
    (hacc' : (0x00000000#32 : BitVec 32) = 0x00000000#32)
    (hc1 : (⟨1, ![1]⟩ : Shape).ShapeCasts ⟨2, ![1, 1]⟩) (u w : Fin 1) :
    shapeCast ⟨2, ![1, 1]⟩
        (multiReduction (F := Ideal) .add [0] ⟨1, ![1]⟩
          (shapeCast ⟨2, ![a, 1]⟩ (multiReduction (F := Ideal) .add [1] ⟨1, ![a]⟩ (mulf Y Y) 0x00000000#32 h1 hφ hacc) hc)
          0x00000000#32 h0 hφ' hacc') hc1 (ix2 u w)
      = ∑ k : Fin a, ∑ j : Fin b, Y (ix2 k j) * Y (ix2 k j) :=
  (shapeCast_a_1a_apply _ hc1 u w).trans
    ((colSum_apply _ h0 hφ' hacc' w).trans
      (Finset.sum_congr rfl fun k _ => rowSumCol_apply (mulf Y Y) h1 hφ hacc hc k w))

/-- A row accumulator plus, at each column q, the sum over the rows k of V k q times the sum of row k
    of U. -/
theorem sdAcc_apply {a b c : ℕ} (U : FVec Ideal ⟨2, ![a, c]⟩ .f32) (V : FVec Ideal ⟨2, ![a, b]⟩ .f32)
    (acc : FVec Ideal ⟨2, ![1, b]⟩ .f32)
    (h1 : Shape.Reduces ⟨2, ![a, c]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, b]⟩)
    (h0 : Shape.Reduces ⟨2, ![a, b]⟩ [0] ⟨1, ![b]⟩) (hφ' : FKind.Formats .f32)
    (hacc' : (0x00000000#32 : BitVec 32) = 0x00000000#32)
    (hc1 : (⟨1, ![b]⟩ : Shape).ShapeCasts ⟨2, ![1, b]⟩)
    (hs : (⟨2, ![1, b]⟩ : Shape).ShapeCasts ⟨2, ![1, b]⟩) (u : Fin 1) (q : Fin b) :
    shapeCast ⟨2, ![1, b]⟩
        (addf acc
          (shapeCast ⟨2, ![1, b]⟩
            (multiReduction (F := Ideal) .add [0] ⟨1, ![b]⟩
              (mulf V (broadcastTo ⟨2, ![a, b]⟩
                (shapeCast ⟨2, ![a, 1]⟩ (multiReduction (F := Ideal) .add [1] ⟨1, ![a]⟩ U 0x00000000#32 h1 hφ hacc) hc) hb))
              0x00000000#32 h0 hφ' hacc') hc1)) hs (ix2 u q)
      = acc (ix2 u q) + ∑ k : Fin a, V (ix2 k q) * ∑ x : Fin c, U (ix2 k x) :=
  (congrFun (shapeCast_self _ hs) (ix2 u q)).trans
    (congrArg (acc (ix2 u q) + ·)
      ((shapeCast_a_1a_apply _ hc1 u q).trans
        ((colSum_apply _ h0 hφ' hacc' q).trans
          (Finset.sum_congr rfl fun k _ => congrArg (V (ix2 k q) * ·)
            ((broadcastTo_a1_ab_apply _ hb k q).trans (rowSumCol_apply U h1 hφ hacc hc k 0))))))

end Cert.Tile
-- ==== Proof.TilePayload.lean ====
/-
  The kernel body's arithmetic read at its one output index. The value stored at the first grid step
  is zero. Every step adds to the running total the sum, over the entries r of the row block and the
  entries c of the column block, of  max (p c − p r + δ) 0 · (pos r · neg c),  where p is the score
  vector, pos and neg the two masks and δ the margin.
-/
import proofs.«103627_j80530636800492_1_alg».proof.Proof.Gen.KernelIdeal.Skeleton
import proofs.«103627_j80530636800492_1_alg».proof.Proof.LibTile
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Idealize.ShloMosaic Idealize.ShloMosaic.ValueIdx Cert.Tile Cert.KernelIdeal.Gen
open scoped BigOperators

/-! ## Indices and layout -/

/-- A [1, 1] value has one index, (0, 0). -/
theorem idx11 (j : S1x1.Idx) : j = ix2 (0 : Fin 1) (0 : Fin 1) :=
  funext fun a => Fin.ext (by
    match a with
    | ⟨0, _⟩ => have := idx2_lt0 j; show (j 0).val = 0; omega
    | ⟨1, _⟩ => have := idx2_lt1 j; show (j 1).val = 0; omega)

/-- A [1, n] row turned into an [n, 1] column and spread along rows of length m reads, at (r, c),
    the row's entry r: the column coordinate is forgotten. -/
theorem colSpread_apply {α : Type} {n m : ℕ} (x : (⟨2, ![1, n]⟩ : Shape).Idx → α)
    (hs : (⟨2, ![1, n]⟩ : Shape).ShapeCasts ⟨2, ![1, n]⟩)
    (ht : (⟨2, ![1, n]⟩ : Shape).Transposes [1, 0] ⟨2, ![n, 1]⟩)
    (hb : (⟨2, ![n, 1]⟩ : Shape).Broadcasts ⟨2, ![n, m]⟩) (r : Fin n) (c : Fin m) :
    broadcastTo ⟨2, ![n, m]⟩ (transpose ⟨2, ![n, 1]⟩ [1, 0] (shapeCast ⟨2, ![1, n]⟩ x hs) ht) hb (ix2 r c)
      = x (ix2 (0 : Fin 1) r) :=
  (broadcastTo_a1_ab_apply _ hb r c).trans
    ((transpose_ix2_apply _ ht r (0 : Fin 1)).trans (congrFun (shapeCast_self x hs) (ix2 (0 : Fin 1) r)))

/-- A [1, m] row spread over n rows reads, at (r, c), the row's entry c: the row coordinate is
    forgotten. -/
theorem rowSpread_apply {α : Type} {n m : ℕ} (x : (⟨2, ![1, m]⟩ : Shape).Idx → α)
    (hs : (⟨2, ![1, m]⟩ : Shape).ShapeCasts ⟨2, ![1, m]⟩)
    (hb : (⟨2, ![1, m]⟩ : Shape).Broadcasts ⟨2, ![n, m]⟩) (r : Fin n) (c : Fin m) :
    broadcastTo ⟨2, ![n, m]⟩ (shapeCast ⟨2, ![1, m]⟩ x hs) hb (ix2 r c) = x (ix2 (0 : Fin 1) c) :=
  (broadcastTo_1b_ab_apply _ hb r c).trans (congrFun (shapeCast_self x hs) (ix2 (0 : Fin 1) c))

/-- Every entry of an [a, b] tile summed, rows first, and kept as a [1, 1] value: the double sum over
    the row and the column coordinate. -/
theorem total_apply {a b : ℕ} (Y : FVec Ideal ⟨2, ![a, b]⟩ .f32)
    (h1 : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (h0 : Shape.Reduces ⟨2, ![a, 1]⟩ [0] ⟨1, ![1]⟩) (hφ' : FKind.Formats .f32)
    (hacc' : (0x00000000#32 : BitVec 32) = 0x00000000#32)
    (hc1 : (⟨1, ![1]⟩ : Shape).ShapeCasts ⟨2, ![1, 1]⟩) (u w : Fin 1) :
    shapeCast ⟨2, ![1, 1]⟩
        (multiReduction (F := Ideal) .add [0] ⟨1, ![1]⟩
          (shapeCast ⟨2, ![a, 1]⟩ (multiReduction (F := Ideal) .add [1] ⟨1, ![a]⟩ Y 0x00000000#32 h1 hφ hacc) hc)
          0x00000000#32 h0 hφ' hacc') hc1 (ix2 u w)
      = ∑ r : Fin a, ∑ c : Fin b, Y (ix2 r c) :=
  (shapeCast_a_1a_apply _ hc1 u w).trans
    ((colSum_apply _ h0 hφ' hacc' w).trans
      (Finset.sum_congr rfl fun r _ => rowSumCol_apply Y h1 hφ hacc hc r w))

/-! ## The two stored values -/

/-- The value stored at the first grid step is zero. -/
theorem pay1_apply (j : S1x1.Idx) : Gen.k0_pay1 (F := Ideal) j = 0 := by
  unfold Gen.k0_pay1
  refine (congrFun (shapeCast_self _ shapeCasts_S1x1_S1x1) j).trans ?_
  exact Ideal.ofBits_zero_f32

/-- The value stored at every grid step: the running total plus the step's double sum over the row
    block's entries r and the column block's entries c. -/
theorem pay2_apply (v5 v7 v9 v11 : Vec Ideal S1x1024 .f32) (v30 : Vec Ideal S1x1 .f32) (j : S1x1.Idx) :
    Gen.k0_pay2 (F := Ideal) v5 v7 v9 v11 v30 j
      = v30 (ix2 (0 : Fin 1) (0 : Fin 1)) + ∑ r : Fin 1024, ∑ c : Fin 1024,
          max (v9 (ix2 (0 : Fin 1) c) - v5 (ix2 (0 : Fin 1) r) + Ideal.ofBits .f32 0x3C23D70A#32) 0
            * (v7 (ix2 (0 : Fin 1) r) * v11 (ix2 (0 : Fin 1) c)) := by
  obtain rfl := idx11 j
  unfold Gen.k0_pay2
  refine (congrFun (shapeCast_self _ shapeCasts_S1x1_S1x1) _).trans ?_
  refine congrArg (v30 (ix2 (0 : Fin 1) (0 : Fin 1)) + ·) ?_
  refine (total_apply _ reduces_S1024x1024_S1024 _ _ shapeCasts_S1024_S1024x1 reduces_S1024x1_S1 _ _
    shapeCasts_S1_S1x1 0 0).trans ?_
  refine Finset.sum_congr rfl fun r _ => Finset.sum_congr rfl fun c _ => ?_
  exact congrArg₂ (· * ·)
    (congrArg₂ max
      (congrArg₂ (· + ·)
        (congrArg₂ (· - ·)
          (rowSpread_apply v9 shapeCasts_S1x1024_S1x1024 broadcasts_S1x1024_S1024x1024 r c)
          (colSpread_apply v5 shapeCasts_S1x1024_S1x1024 transposes_S1x1024_p1_0_S1024x1
            broadcasts_S1024x1_S1024x1024 r c))
        rfl)
      Ideal.ofBits_zero_f32)
    (congrArg₂ (· * ·)
      (colSpread_apply v7 shapeCasts_S1x1024_S1x1024 transposes_S1x1024_p1_0_S1024x1
        broadcasts_S1024x1_S1024x1024 r c)
      (rowSpread_apply v11 shapeCasts_S1x1024_S1x1024 broadcasts_S1x1024_S1024x1024 r c))

end Cert.KernelIdeal.Payload

end
-- ==== Proof.Ideal.RunningTotal.lean ====
/-
  The running total the kernel carries, read as mathematics. At the ideal values the accumulator's one entry after the
  body at grid point n is the sum of the pair terms over the tiles of points 0 … n, visited row-major: each point adds
  its tile's sum — over the rows r and columns c of the tile, max(s(col c) − s(row r) + δ, 0) · (pos(row r) · neg(col c))
  with s the scores and pos, neg the two masks as the region finds them — to what the point before left, the first
  point to a fresh zero. The output array ends at the total after the last point.
-/
import proofs.«103627_j80530636800492_1_alg».proof.Proof.Ideal.PiecesAsPayloads
import proofs.«103627_j80530636800492_1_alg».proof.Proof.Ideal.BlockReads
import proofs.«103627_j80530636800492_1_alg».proof.Proof.TilePayload
import proofs.«103627_j80530636800492_1_alg».proof.Proof.PairSumSpec

set_option maxRecDepth 16384

noncomputable section

namespace Cert.KernelIdeal.Region

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.PairSum

variable (m : (ℓ : Loc nD τ sig) → Buf (Elt Ideal) ℓ)

/-- The hinge offset, as the body's literal denotes it. -/
abbrev δ : EReal := Ideal.ofBits .f32 0x3C23D70A#32

/-- The scores and the two masks as the region finds them, as plain vectors of length 16384. -/
def scoresAt (c : Dev nD) : Fin 16384 → EReal := fun a => (V m c main_v19 : S1x16384.Idx → EReal) (ix2 (0 : Fin 1) a)
def posAt (c : Dev nD) : Fin 16384 → EReal := fun a => (V m c main_v20 : S1x16384.Idx → EReal) (ix2 (0 : Fin 1) a)
def negAt (c : Dev nD) : Fin 16384 → EReal := fun a => (V m c main_v21 : S1x16384.Idx → EReal) (ix2 (0 : Fin 1) a)

/-- One point's update over blocks that are the tile's rows and columns of the three vectors: the old entry plus the
    tile's sum of pair terms. -/
theorem update_value (x0 x1 x2 x3 : Vec Ideal S1x1024 .f32) (xs : Vec Ideal S1x1 .f32) (s pos neg : Fin 16384 → EReal) (n : ℕ)
    (h0 : ∀ r : Fin 1024, x0 (ix2 (0 : Fin 1) r) = s (rowOf n r)) (h1 : ∀ r : Fin 1024, x1 (ix2 (0 : Fin 1) r) = pos (rowOf n r))
    (h2 : ∀ k : Fin 1024, x2 (ix2 (0 : Fin 1) k) = s (colOf n k)) (h3 : ∀ k : Fin 1024, x3 (ix2 (0 : Fin 1) k) = neg (colOf n k)) :
    Gen.k0_pay2 (F := Ideal) x0 x1 x2 x3 xs (ix2 (0 : Fin 1) (0 : Fin 1))
      = xs (ix2 (0 : Fin 1) (0 : Fin 1)) + tile (term δ s pos neg) n := by
  rw [Payload.pay2_apply]
  unfold tile term
  refine congrArg (xs (ix2 (0 : Fin 1) (0 : Fin 1)) + ·) ?_
  refine Finset.sum_congr rfl fun r _ => Finset.sum_congr rfl fun k _ => ?_
  rw [h0, h1, h2, h3]

/-- The point's four blocks are the tile's rows and columns of the scores and masks. -/
theorem update_at (c : Dev nD) (t : Fin cfg0.N) (xs : Vec Ideal S1x1 .f32) :
    Gen.k0_pay2 (F := Ideal) (rowScores m c t) (rowMask m c t) (colScores m c t) (colMask m c t) xs (ix2 (0 : Fin 1) (0 : Fin 1))
      = xs (ix2 (0 : Fin 1) (0 : Fin 1)) + tile (term δ (scoresAt m c) (posAt m c) (negAt m c)) t.val :=
  update_value (rowScores m c t) (rowMask m c t) (colScores m c t) (colMask m c t) xs (scoresAt m c) (posAt m c) (negAt m c) t.val
    (fun r => rowScores_apply m c t r) (fun r => rowMask_apply m c t r) (fun k => colScores_apply m c t k) (fun k => colMask_apply m c t k)

/-- THE RUNNING TOTAL: after the body at point n the accumulator's entry is the sum over the tiles of points 0 … n. -/
theorem acc_eq (c : Dev nD) : ∀ (n : ℕ) (hn : n < cfg0.N),
    (outsAt m c n hn).2 (ix2 (0 : Fin 1) (0 : Fin 1)) = accAt (term δ (scoresAt m c) (posAt m c) (negAt m c)) n
  | 0, hn => by
    have e := outsAt_first m c ⟨0, hn⟩ (Nat.zero_mod _) (by show ¬(0 % 256 = 255); decide)
    rw [show (outsAt m c 0 hn) = outsAt m c (⟨0, hn⟩ : Fin cfg0.N).val (⟨0, hn⟩ : Fin cfg0.N).isLt from rfl, e]
    dsimp only
    rw [accFirst_eq]
    refine (update_at m c ⟨0, hn⟩ _).trans ?_
    rw [Payload.pay1_apply]
    rfl
  | n + 1, hn => by
    have hN : n + 1 < 256 := lt_of_lt_of_eq hn (show cfg0.N = 256 from N_0)
    have h0 : ¬(n + 1) % 256 = 0 := by omega
    have ih := acc_eq c n (Nat.lt_of_succ_lt hn)
    by_cases h1 : (n + 1) % 256 = 255
    · have e := outsAt_last m c ⟨n + 1, hn⟩ h0 h1
      rw [show (outsAt m c (n + 1) hn) = outsAt m c (⟨n + 1, hn⟩ : Fin cfg0.N).val (⟨n + 1, hn⟩ : Fin cfg0.N).isLt from rfl, e]
      dsimp only
      rw [accLast_eq]
      refine (update_at m c ⟨n + 1, hn⟩ _).trans ?_
      rw [show accAt (term δ (scoresAt m c) (posAt m c) (negAt m c)) (n + 1)
        = accAt (term δ (scoresAt m c) (posAt m c) (negAt m c)) n + tile (term δ (scoresAt m c) (posAt m c) (negAt m c)) (n + 1) from rfl, ← ih]
      rfl
    · have e := outsAt_middle m c ⟨n + 1, hn⟩ h0 h1
      rw [show (outsAt m c (n + 1) hn) = outsAt m c (⟨n + 1, hn⟩ : Fin cfg0.N).val (⟨n + 1, hn⟩ : Fin cfg0.N).isLt from rfl, e]
      dsimp only
      rw [accMiddle_eq]
      refine (update_at m c ⟨n + 1, hn⟩ _).trans ?_
      rw [show accAt (term δ (scoresAt m c) (posAt m c) (negAt m c)) (n + 1)
        = accAt (term δ (scoresAt m c) (posAt m c) (negAt m c)) n + tile (term δ (scoresAt m c) (posAt m c) (negAt m c)) (n + 1) from rfl, ← ih]
      rfl

/-- At the last point the body copies the accumulator into the output: the output's entry is the total so far. -/
theorem out_eq (c : Dev nD) (t : Fin cfg0.N) (ht : t.val = 255) :
    (outsAt m c t.val t.isLt).1 (ix2 (0 : Fin 1) (0 : Fin 1)) = accAt (term δ (scoresAt m c) (posAt m c) (negAt m c)) t.val := by
  have h0 : ¬t.val % 256 = 0 := by omega
  have h1 : t.val % 256 = 255 := by omega
  have hp : t.val - 1 < cfg0.N := Nat.lt_of_le_of_lt (Nat.sub_le _ _) t.isLt
  rw [outsAt_last m c t h0 h1]
  dsimp only
  rw [outLast_eq]
  refine (update_at m c t _).trans ?_
  rw [acc_eq m c (t.val - 1) hp]
  obtain ⟨n, hn⟩ : ∃ n, t.val = n + 1 := ⟨254, by omega⟩
  rw [hn]
  rfl

end Cert.KernelIdeal.Region

end
-- ==== Proof.Ideal.OutputArray.lean ====
/-
  The region's result array after the run. The output's window is the whole [1,1] array, its block index constantly
  (0, 0), and it is written back at the last grid point only; so after the region the array holds what the body left
  in the window's buffer at that last point. The last point is kept symbolic (any point at position 255): the
  buffer's contents are a recursion on the position, which is compared by position and never evaluated.
-/
import proofs.«103627_j80530636800492_1_alg».proof.Proof.Ideal.RegionData
import Idealize.ShloMosaic.Lib.Pipeline.Value
import Idealize.ShloMosaic.Lib.ValueIdx

set_option maxRecDepth 16384

noncomputable section

namespace Cert.KernelIdeal.Region

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ)

/-- The last grid point is inside the grid. -/
theorem last_lt : 255 < cfg0.N := by rw [show cfg0.N = 256 from N_0]; omega

/-- What a point leaves in the output's buffer, as contents of the result array. -/
abbrev outAt (c : Dev nD) (t : Fin cfg0.N) : Buf (Elt F) ((c : Thread nD τ).loc main_v22) := (outsAt m c t.val t.isLt).1

/-- The output window's block index is (0, 0) at every grid point. -/
theorem index4 (t : Fin cfg0.N) (a : Fin main_v22.ty.shape.rank) : win0_4.index t a = 0 := by
  show cc0_transform_4 (grid0.coords t) a = 0
  unfold cc0_transform_4
  fin_cases a <;> rfl

/-- Its block at any point is the whole array: contents read through it are the contents. -/
theorem read_blk4 (c : Dev nD) (t : Fin cfg0.N) (G : Buf (Elt F) ((c : Thread nD τ).loc main_v22)) :
    ((cfg0.win 4).blk t).view.read (Elt F) G = G := by
  have hoff : (fun a => win0_4.index t a * main_v22.ty.shape.size a) = fun _ => 0 :=
    funext fun a => by rw [index4, Nat.zero_mul]
  exact Memref.read_access_unit_zero (Elt F) main_v22 hoff (fun a => by rw [congrFun hoff a, Nat.zero_add]) G

/-- The window is not cut at the array's end: what is written back is all of the buffer. -/
theorem cut4 (t : Fin cfg0.N) (X : Vec F S1x1 .f32) : (cfg0.win 4).cut (grid0.coords t) X = X := rfl

/-- The one write-back: a flushing point is the last point `t`, and the block it writes is the whole array. -/
theorem flushed4_eq (c : Dev nD) (t : Fin cfg0.N) (ht : t.val = 255) (t' : Fin cfg0.N) (hf : (cfg0.win 4).flush t' = true) :
    (dats m 0 c).flushed 4 t' = ((cfg0.win 4).blk t').view.read (Elt F) (outAt m c t) := by
  have hN : cfg0.N = 256 := N_0
  have h255 : t'.val = 255 := by have := (flush0_4 t').mp hf; have := t'.isLt; omega
  obtain rfl : t' = t := Fin.ext (h255.trans ht.symm)
  show (cfg0.win 4).cut (grid0.coords t') ((dats m 0 c).after 4 t') = _
  rw [after4, read_blk4, cut4]

/-- So the result array ends holding what the last point `t` left: it writes back, and its block, the whole array,
    covers every index. -/
theorem out_final (c : Dev nD) (t : Fin cfg0.N) (ht : t.val = 255) :
    (dats m 0 c).arrAt 4 cfg0.N = (outsAt m c t.val t.isLt).1 :=
  (dats m 0 c).arrAt_eq_of_cover 4 (outAt m c t) (flushed4_eq m c t ht) fun i =>
    ⟨t, (flush0_4 t).mpr (by rw [ht]), by
      show i ∈ ((View.whole main_v22).slice (win0_4.rect t)).set
      rw [View.set_slice_whole, Rect.mem_set_unit]
      intro a
      rw [index4, Nat.zero_mul, Nat.zero_add]
      exact ⟨Nat.zero_le _, (i a).isLt⟩⟩

end Cert.KernelIdeal.Region

end
-- ==== Proof.Ideal.EntryValues.lean ====
/-
  What the three input windows' arrays hold when the pair-sum region is entered, in the reference's own terms. Before
  the region the kernel's program applies the same operations as the reference to its two arguments: the softmax over
  the two classes, of which it keeps the class-1 column (the probability vector p), and the two label comparisons turned
  into 0/1 reals (the masks pos and neg). It then recasts each vector of length 16384 as a single row [1, 16384]. A recast
  keeps row-major positions, and (0, k) of one row and k of the vector are both at position k; so each window's array at
  (0, k) is the reference's vector at k. The positives' mask is also kept as a plain vector for the count after the region.
-/
import proofs.«103627_j80530636800492_1_alg».proof.Proof.Ideal.Setup
import proofs.«103627_j80530636800492_1_alg».proof.Proof.Gen.ReferenceIdeal.Read
import Idealize.ShloMosaic.Lib.ValueIdx

set_option maxRecDepth 16384

noncomputable section

namespace Cert.KernelIdeal.Region

open Idealize.ShloMosaic Idealize.ShloMosaic.TcCoe Idealize.ShloMosaic.StableHlo
open Cert.KernelIdeal Cert.KernelIdeal.Gen

variable (m : (ℓ : Loc nD τ sig) → Buf (Elt Ideal) ℓ) (c : Dev nD)
/-- The scores window's array is the reference's probability vector recast as one row, -/
theorem scores_row : (V m c main_v19 : S1x16384.Idx → EReal)
    = shapeCast S1x16384 (Cert.ReferenceIdeal.Read.val_main_v12 (F := Ideal) (m ((c.tc : Thread nD τ).loc main_arg0))) shapeCasts_S16384_S1x16384 := by
  dsimp only [V, V0]
  simp only [Gen.hostOps0, List.flatten_cons, List.flatten_nil, List.append_nil]
  after_results
  rfl

/-- the positives' window's array the mask of the label 1 recast as one row, -/
theorem pos_row : (V m c main_v20 : S1x16384.Idx → EReal)
    = shapeCast S1x16384 (Cert.ReferenceIdeal.Read.val_main_v15 (F := Ideal) (m ((c.tc : Thread nD τ).loc main_arg1))) shapeCasts_S16384_S1x16384 := by
  dsimp only [V, V0]
  simp only [Gen.hostOps0, List.flatten_cons, List.flatten_nil, List.append_nil]
  after_results
  rfl

/-- and the negatives' window's array the mask of the label 0 recast as one row. -/
theorem neg_row : (V m c main_v21 : S1x16384.Idx → EReal)
    = shapeCast S1x16384 (Cert.ReferenceIdeal.Read.val_main_v18 (F := Ideal) (m ((c.tc : Thread nD τ).loc main_arg1))) shapeCasts_S16384_S1x16384 := by
  dsimp only [V, V0]
  simp only [Gen.hostOps0, List.flatten_cons, List.flatten_nil, List.append_nil]
  after_results
  rfl

/-- The positives' mask before the recast is the reference's, as a whole vector. -/
theorem entry_posVec : (V m c main_v15 : S16384.Idx → EReal)
    = Cert.ReferenceIdeal.Read.val_main_v15 (F := Ideal) (m ((c.tc : Thread nD τ).loc main_arg1)) := by
  dsimp only [V, V0]
  simp only [Gen.hostOps0, List.flatten_cons, List.flatten_nil, List.append_nil]
  after_results
  rfl

/-- One row of 16384 read at (0, k) is the vector at k: both have row-major position k. -/
theorem row_apply (x : S16384.Idx → EReal) (k : Fin 16384) :
    shapeCast S1x16384 x shapeCasts_S16384_S1x16384 (ValueIdx.ix2 0 k) = x (ValueIdx.ix1 k) :=
  shapeCast_apply x shapeCasts_S16384_S1x16384 (ValueIdx.ix2 0 k) (ValueIdx.ix1 k)
    (by rw [Shape.rowMajor_val_two, Shape.rowMajor_val_one]; show k.val = 0 * 16384 + k.val; omega)

/-- The scores row at column k is p k. -/
theorem entry_scores (k : Fin 16384) : V m c main_v19 (ValueIdx.ix2 0 k)
    = Cert.ReferenceIdeal.Read.val_main_v12 (F := Ideal) (m ((c.tc : Thread nD τ).loc main_arg0)) (ValueIdx.ix1 k) :=
  (congrFun (scores_row m c) (ValueIdx.ix2 0 k)).trans (row_apply _ k)
/-- The positives' row at column k is pos k. -/
theorem entry_pos (k : Fin 16384) : V m c main_v20 (ValueIdx.ix2 0 k)
    = Cert.ReferenceIdeal.Read.val_main_v15 (F := Ideal) (m ((c.tc : Thread nD τ).loc main_arg1)) (ValueIdx.ix1 k) :=
  (congrFun (pos_row m c) (ValueIdx.ix2 0 k)).trans (row_apply _ k)
/-- The negatives' row at column k is neg k. -/
theorem entry_neg (k : Fin 16384) : V m c main_v21 (ValueIdx.ix2 0 k)
    = Cert.ReferenceIdeal.Read.val_main_v18 (F := Ideal) (m ((c.tc : Thread nD τ).loc main_arg1)) (ValueIdx.ix1 k) :=
  (congrFun (neg_row m c) (ValueIdx.ix2 0 k)).trans (row_apply _ k)

end Cert.KernelIdeal.Region

end
-- ==== Proof.RefValue.lean ====
/-
  The reference's result as one function of the argument arrays. Reading the reference one operation at a time at an
  index: the 16384 × 16384 array it sums has, at (a, b), the hinge max(p b − p a + δ, 0) times pos a · neg b, where p is
  the class-1 softmax probability vector and pos, neg the 0/1 masks of the labels 1 and 0; the broadcasts only pick
  coordinates. So the reduced scalar is zero plus the sum of the pair terms over all index pairs, and the result is that
  sum divided by max(number of positives, 1).
-/
import proofs.«103627_j80530636800492_1_alg».proof.Proof.Gen.ReferenceIdeal.Run
import proofs.«103627_j80530636800492_1_alg».proof.Proof.Gen.ReferenceIdeal.Read
import proofs.«103627_j80530636800492_1_alg».proof.Proof.PairSumSpec
import Idealize.ShloMosaic.Lib.ValueIdx

noncomputable section

namespace Cert.ReferenceIdeal.RefValue

open Idealize.ShloMosaic Cert.ReferenceIdeal

/-- The class-1 probabilities as a function of the row. -/
def P (x0 : (⟨S16384x2, .f32⟩ : BufTy).Contents (Elt Ideal)) : Fin 16384 → EReal :=
  fun a => Read.val_main_v12 (F := Ideal) x0 (ValueIdx.ix1 a)
/-- The mask of the rows labelled 1, as 0/1 reals. -/
def POS (x1 : (⟨S16384, .i32⟩ : BufTy).Contents (Elt Ideal)) : Fin 16384 → EReal :=
  fun a => Read.val_main_v15 (F := Ideal) x1 (ValueIdx.ix1 a)
/-- The mask of the rows labelled 0, as 0/1 reals. -/
def NEG (x1 : (⟨S16384, .i32⟩ : BufTy).Contents (Elt Ideal)) : Fin 16384 → EReal :=
  fun a => Read.val_main_v18 (F := Ideal) x1 (ValueIdx.ix1 a)

/-- The summed array at the pair (a, b) = (j 0, j 1) is the pair's term: the row broadcast reads the column coordinate,
    the column broadcast the row coordinate. -/
theorem summand_eq (x0 : (⟨S16384x2, .f32⟩ : BufTy).Contents (Elt Ideal)) (x1 : (⟨S16384, .i32⟩ : BufTy).Contents (Elt Ideal))
    (j : S16384x16384.Idx) :
    Read.val_main_v32 (F := Ideal) x0 x1 j
      = Cert.PairSum.term (Ideal.ofBits .f32 0x3C23D70A#32) (P x0) (POS x1) (NEG x1) (j 0) (j 1) := by
  have e1 : Read.idx_main_v19 (Read.idx_main_v21 j) = ValueIdx.ix1 (j 1) := by
    funext a; match a with | ⟨0, _⟩ => rfl
  have e0 : Read.idx_main_v20 (Read.idx_main_v22 j) = ValueIdx.ix1 (j 0) := by
    funext a; match a with | ⟨0, _⟩ => rfl
  have f0 : Read.idx_main_v27 (Read.idx_main_v29 j) = ValueIdx.ix1 (j 0) := by
    funext a; match a with | ⟨0, _⟩ => rfl
  have f1 : Read.idx_main_v28 (Read.idx_main_v30 j) = ValueIdx.ix1 (j 1) := by
    funext a; match a with | ⟨0, _⟩ => rfl
  rw [Read.val_main_v32_apply, Read.val_main_v26_apply, Read.val_main_v25_apply, Read.val_main_v23_apply,
    Read.val_main_v21_apply, Read.val_main_v19_apply, Read.val_main_v22_apply, Read.val_main_v20_apply,
    Read.val_main_v24_apply, Read.val_main_cst_3_apply, Read.val_main_call0_v0_apply, Read.val_main_call0_cst_apply,
    Read.val_main_v31_apply, Read.val_main_v29_apply, Read.val_main_v27_apply, Read.val_main_v30_apply,
    Read.val_main_v28_apply, e1, e0, f0, f1]
  simp only [Ideal.ofBits_def, Ideal.addf_def, Ideal.subf_def, Ideal.mulf_def, Ideal.maximumf_def, Ideal.ofBits_zero_f32,
    Cert.PairSum.term, P, POS, NEG]
  rfl

/-- The reduced scalar: zero plus the sum of the pair terms over all pairs. -/
theorem pairSum_eq (x0 : (⟨S16384x2, .f32⟩ : BufTy).Contents (Elt Ideal)) (x1 : (⟨S16384, .i32⟩ : BufTy).Contents (Elt Ideal))
    (i : S_.Idx) :
    Read.val_main_v33 (F := Ideal) x0 x1 i
      = 0 + ∑ j : S16384x16384.Idx,
          Cert.PairSum.term (Ideal.ofBits .f32 0x3C23D70A#32) (P x0) (POS x1) (NEG x1) (j 0) (j 1) := by
  rw [Read.val_main_v33_apply, Read.val_main_cst_4_apply, Ideal.ofBits_def, Ideal.ofBits_zero_f32]
  exact congrArg (0 + ·) (Finset.sum_congr rfl fun j _ => summand_eq x0 x1 j)

/-- The result: the pair sum divided by max(number of positives, 1). -/
theorem result_eq (x0 : (⟨S16384x2, .f32⟩ : BufTy).Contents (Elt Ideal)) (x1 : (⟨S16384, .i32⟩ : BufTy).Contents (Elt Ideal))
    (i : S_.Idx) :
    Read.val_main_v36 (F := Ideal) x0 x1 i
      = FloatOps.hostDivf (F := Ideal) (φ := .f32)
          (0 + ∑ j : S16384x16384.Idx,
            Cert.PairSum.term (Ideal.ofBits .f32 0x3C23D70A#32) (P x0) (POS x1) (NEG x1) (j 0) (j 1))
          (Read.val_main_v35 (F := Ideal) x1 i) := by
  rw [Read.val_main_v36_apply, pairSum_eq]

end Cert.ReferenceIdeal.RefValue

end
-- ==== Proof.LibSums.lean ====
/-
  Finite sums regrouped: a sum over `a + b` indices split at `a`; a sum over `T * R` indices as `T` blocks of
  `R` consecutive indices (index `R * t + r`: the position `r` inside a block is the fast coordinate); and the
  block-by-block partial sums an induction over the blocks needs. Everything holds in any additive commutative
  monoid, so in particular on the extended reals with no finiteness side condition.
-/
import Mathlib.Algebra.BigOperators.Fin
import Mathlib.Algebra.BigOperators.Group.Finset.Basic
import Mathlib.Logic.Equiv.Fin.Basic

namespace Cert.Sums

open scoped BigOperators

variable {M : Type*} [AddCommMonoid M]

/-! ## A sum split in two -/

/-- A sum over `a + b` indices is the sum over the first `a` of them plus the sum over the last `b`. -/
theorem sum_split (a b : ℕ) (f : Fin (a + b) → M) :
    ∑ k, f k = ∑ k : Fin a, f (Fin.castAdd b k) + ∑ k : Fin b, f (Fin.natAdd a k) :=
  Fin.sum_univ_add f

/-- A sum over 256 indices is the sum over the indices `k < 128` plus the sum over the indices `128 + k`. -/
theorem sum_split_128_128 (f : Fin 256 → M) :
    ∑ k, f k = ∑ k : Fin 128, f ⟨k.val, by omega⟩ + ∑ k : Fin 128, f ⟨128 + k.val, by omega⟩ :=
  sum_split 128 128 f

/-! ## A sum cut into blocks -/

/-- Position `r < R` of block `t < T` is an index below `T * R`. -/
theorem block_index_lt {T R t r : ℕ} (ht : t < T) (hr : r < R) : R * t + r < T * R := by
  calc R * t + r < R * t + R := by omega
    _ = R * (t + 1) := (Nat.mul_succ R t).symm
    _ ≤ R * T := Nat.mul_le_mul_left _ ht
    _ = T * R := Nat.mul_comm _ _

/-- A sum over `T * R` indices is the sum over the `T` blocks of the sum over the `R` positions of each block;
position `r` of block `t` is the index `R * t + r`. -/
theorem sum_blocks (T R : ℕ) (f : Fin (T * R) → M) :
    ∑ n, f n = ∑ t : Fin T, ∑ r : Fin R, f ⟨R * t.val + r.val, block_index_lt t.isLt r.isLt⟩ := by
  rw [← (finProdFinEquiv (m := T) (n := R)).sum_comp f, Fintype.sum_prod_type]
  refine Finset.sum_congr rfl fun t _ => Finset.sum_congr rfl fun r _ => ?_
  congr 1
  apply Fin.ext
  simp only [finProdFinEquiv_apply_val]
  omega

/-- A sum over 50000 indices is the sum over 25 blocks of 2000: position `r` of block `t` is `2000 * t + r`. -/
theorem sum_blocks_25_2000 (f : Fin 50000 → M) :
    ∑ n, f n = ∑ t : Fin 25, ∑ r : Fin 2000, f ⟨2000 * t.val + r.val, by omega⟩ :=
  sum_blocks 25 2000 f

/-! ## Partial sums, block by block -/

/-- The sum of the first `n` blocks (`n ≤ T`) of a family over `T * R` indices. -/
def prefixBlocks (T R : ℕ) (f : Fin (T * R) → M) (n : ℕ) (hn : n ≤ T) : M :=
  ∑ t : Fin n, ∑ r : Fin R, f ⟨R * t.val + r.val, block_index_lt (lt_of_lt_of_le t.isLt hn) r.isLt⟩

/-- No block: the partial sum is zero. -/
theorem prefixBlocks_zero (T R : ℕ) (f : Fin (T * R) → M) : prefixBlocks T R f 0 (Nat.zero_le T) = 0 := by
  simp [prefixBlocks]

/-- The sum of the first `n + 1` blocks is the sum of the first `n` blocks plus the sum over block `n`. -/
theorem prefixBlocks_succ (T R : ℕ) (f : Fin (T * R) → M) (n : ℕ) (hn : n < T) :
    prefixBlocks T R f (n + 1) hn
      = prefixBlocks T R f n (Nat.le_of_lt hn) + ∑ r : Fin R, f ⟨R * n + r.val, block_index_lt hn r.isLt⟩ := by
  unfold prefixBlocks
  rw [Fin.sum_univ_castSucc]
  rfl

/-- All `T` blocks: the partial sum is the whole sum. -/
theorem prefixBlocks_all (T R : ℕ) (f : Fin (T * R) → M) : prefixBlocks T R f T (Nat.le_refl T) = ∑ n, f n := by
  rw [sum_blocks T R f]; rfl

/-- A running total that starts at zero and, at block `n`, grows by the sum over block `n`, is after the last
block the sum over all `T * R` indices. -/
theorem sum_of_block_recursion (T R : ℕ) (f : Fin (T * R) → M) (acc : ℕ → M) (h0 : acc 0 = 0)
    (hs : ∀ (n : ℕ) (hn : n < T), acc (n + 1) = acc n + ∑ r : Fin R, f ⟨R * n + r.val, block_index_lt hn r.isLt⟩) :
    acc T = ∑ n, f n := by
  have key : ∀ (n : ℕ) (hn : n ≤ T), acc n = prefixBlocks T R f n hn := by
    intro n
    induction n with
    | zero => intro _; rw [h0, prefixBlocks_zero]
    | succ n ih => intro hn; rw [hs n hn, ih (Nat.le_of_lt hn), prefixBlocks_succ]
  rw [key T (Nat.le_refl T), prefixBlocks_all]

/-- The same over sums indexed by natural numbers: the sum over the first `(n + 1) * R` indices is the sum over the
first `n * R` plus the sum over the `R` indices `R * n + r` of block `n`. -/
theorem sum_range_succ_mul (R n : ℕ) (g : ℕ → M) :
    ∑ i ∈ Finset.range ((n + 1) * R), g i
      = ∑ i ∈ Finset.range (n * R), g i + ∑ r ∈ Finset.range R, g (R * n + r) := by
  rw [Nat.succ_mul, Finset.sum_range_add, Nat.mul_comm n R]

/-- 25 blocks of 2000: a running total that starts at zero and at block `n` grows by the sum over the indices
`2000 * n + r` is, after block 24, the sum over all 50000 indices. -/
theorem sum_of_block_recursion_25_2000 (f : Fin 50000 → M) (acc : ℕ → M) (h0 : acc 0 = 0)
    (hs : ∀ (n : ℕ) (hn : n < 25), acc (n + 1) = acc n + ∑ r : Fin 2000, f ⟨2000 * n + r.val, by omega⟩) :
    acc 25 = ∑ n, f n :=
  sum_of_block_recursion 25 2000 f acc h0 hs

end Cert.Sums
-- ==== Proof.PairSumAlgebra.lean ====
/-
  The running total of the 256 tile sums equals the sum over all 16384 × 16384 ordered pairs. Only the laws of an additive
  commutative monoid are used (the extended reals need no finiteness condition for this): the running total is the sum of
  the tile sums; the 256 grid points in row-major order are the pairs (i, j) of a row block and a column block; and each
  axis of 16384 indices is 16 blocks of 1024 consecutive indices, so summing tile by tile only reorders the terms.
-/
import proofs.«103627_j80530636800492_1_alg».proof.Proof.PairSumSpec
import proofs.«103627_j80530636800492_1_alg».proof.Proof.LibSums
import Idealize.ShloMosaic.Lib.ValueIdx
import Mathlib.Algebra.BigOperators.Fin
import Mathlib.Algebra.BigOperators.Group.Finset.Basic

noncomputable section

namespace Cert.PairSum

open Idealize.ShloMosaic Idealize.ShloMosaic.ValueIdx
open scoped BigOperators

/-- The running total after grid point `n` is the sum of the tile sums of the points `0 … n`. -/
theorem accAt_eq_sum_range (f : Fin 16384 → Fin 16384 → EReal) (n : ℕ) :
    accAt f n = ∑ k ∈ Finset.range (n + 1), tile f k := by
  induction n with
  | zero => rw [accAt, Finset.sum_range_one]; exact zero_add _
  | succ n ih => rw [accAt, ih, Finset.sum_range_succ _ (n + 1)]

/-- At the grid point `16 * i + j` the tile's row block is `i`. -/
theorem rowOf_grid (i j : Fin 16) (r : Fin 1024) :
    rowOf (16 * i.val + j.val) r = ⟨1024 * i.val + r.val, by have := i.isLt; have := r.isLt; omega⟩ := by
  apply Fin.ext
  have := i.isLt; have := j.isLt
  show 1024 * ((16 * i.val + j.val) / 16 % 16) + r.val = 1024 * i.val + r.val
  have h : (16 * i.val + j.val) / 16 % 16 = i.val := by omega
  rw [h]

/-- At the grid point `16 * i + j` the tile's column block is `j`. -/
theorem colOf_grid (i j : Fin 16) (c : Fin 1024) :
    colOf (16 * i.val + j.val) c = ⟨1024 * j.val + c.val, by have := j.isLt; have := c.isLt; omega⟩ := by
  apply Fin.ext
  have := i.isLt; have := j.isLt
  show 1024 * ((16 * i.val + j.val) % 16) + c.val = 1024 * j.val + c.val
  have h : (16 * i.val + j.val) % 16 = j.val := by omega
  rw [h]

/-- The tile sum at the grid point `16 * i + j`, with its rows and columns written out. -/
theorem tile_grid (f : Fin 16384 → Fin 16384 → EReal) (i j : Fin 16) :
    tile f (16 * i.val + j.val)
      = ∑ r : Fin 1024, ∑ c : Fin 1024,
          f ⟨1024 * i.val + r.val, by have := i.isLt; have := r.isLt; omega⟩
            ⟨1024 * j.val + c.val, by have := j.isLt; have := c.isLt; omega⟩ := by
  unfold tile
  refine Finset.sum_congr rfl fun r _ => Finset.sum_congr rfl fun c _ => ?_
  rw [rowOf_grid, colOf_grid]

/-- The 256 tile sums in row-major order are the tile sums over the 16 × 16 grid. -/
theorem sum_tiles_grid (f : Fin 16384 → Fin 16384 → EReal) :
    ∑ k ∈ Finset.range 256, tile f k = ∑ i : Fin 16, ∑ j : Fin 16, tile f (16 * i.val + j.val) := by
  rw [Finset.sum_range]
  exact Cert.Sums.sum_blocks 16 16 (fun k : Fin (16 * 16) => tile f k.val)

/-- One axis of 16384 indices is 16 blocks of 1024 consecutive indices. -/
theorem sum_axis (g : Fin 16384 → EReal) :
    ∑ a, g a = ∑ i : Fin 16, ∑ r : Fin 1024,
      g ⟨1024 * i.val + r.val, by have := i.isLt; have := r.isLt; omega⟩ :=
  Cert.Sums.sum_blocks 16 1024 (fun a : Fin (16 * 1024) => g a)

/-- The sum over all ordered pairs, tile by tile: both axes cut into blocks and the two middle sums exchanged. -/
theorem sum_pairs_grid (f : Fin 16384 → Fin 16384 → EReal) :
    ∑ a, ∑ b, f a b
      = ∑ i : Fin 16, ∑ j : Fin 16, ∑ r : Fin 1024, ∑ c : Fin 1024,
          f ⟨1024 * i.val + r.val, by have := i.isLt; have := r.isLt; omega⟩
            ⟨1024 * j.val + c.val, by have := j.isLt; have := c.isLt; omega⟩ := by
  rw [sum_axis (fun a => ∑ b, f a b)]
  refine Finset.sum_congr rfl fun i _ => ?_
  rw [Finset.sum_comm (s := (Finset.univ : Finset (Fin 16))) (t := (Finset.univ : Finset (Fin 1024)))]
  refine Finset.sum_congr rfl fun r _ => ?_
  exact sum_axis (fun b => f _ b)

/-- After the last grid point the running total is the sum of `f` over all ordered pairs. -/
theorem accAt_last (f : Fin 16384 → Fin 16384 → EReal) :
    accAt f 255 = ∑ j : (⟨2, ![16384, 16384]⟩ : Idealize.ShloMosaic.Shape).Idx, f (j 0) (j 1) := by
  rw [accAt_eq_sum_range, sum_tiles_grid, sum_idx2 (n0 := 16384) (n1 := 16384) (fun j => f (j 0) (j 1))]
  show _ = ∑ a : Fin 16384, ∑ b : Fin 16384, f a b
  rw [sum_pairs_grid]
  exact Finset.sum_congr rfl fun i _ => Finset.sum_congr rfl fun j _ => tile_grid f i j

end Cert.PairSum

end
-- ==== Proof.Ideal.KernelValue.lean ====
/-
  The idealized kernel program's result is the reference's. After the region the output array's one entry is the
  running total after the last of the 256 tiles, which is the sum of the pair terms max(p b − p a + δ, 0) · (pos a · neg b)
  over all 16384 × 16384 ordered pairs (a, b); the vectors p, pos, neg the region finds are the reference's. The host
  lines after the region recast the [1, 1] array as a scalar, count the positives, take the maximum of the count with
  one, and divide: the same count, maximum and quotient the reference applies to its own sum over all pairs.
-/
import proofs.«103627_j80530636800492_1_alg».proof.Proof.Ideal.RunningTotal
import proofs.«103627_j80530636800492_1_alg».proof.Proof.Ideal.OutputArray
import proofs.«103627_j80530636800492_1_alg».proof.Proof.Ideal.Launch
import proofs.«103627_j80530636800492_1_alg».proof.Proof.Ideal.EntryValues
import proofs.«103627_j80530636800492_1_alg».proof.Proof.RefValue
import proofs.«103627_j80530636800492_1_alg».proof.Proof.PairSumAlgebra
import Idealize.ShloMosaic.Lib.Pipeline.Value
import Idealize.ShloMosaic.Lib.ValueIdx

set_option maxRecDepth 16384

noncomputable section

namespace Cert.KernelIdeal.Region

open Idealize.ShloMosaic Idealize.ShloMosaic.TcCoe Idealize.ShloMosaic.ValueIdx
open Idealize.ShloMosaic.Pipeline (Dat)
open Cert.KernelIdeal Cert.KernelIdeal.Gen Cert.PairSum

variable (m : (ℓ : Loc nD τ sig) → Buf (Elt Ideal) ℓ)
/-! ## The last host lines at an index -/

/-- A host quotient of two arrays read at an index divides the elements. -/
theorem hostDivf_at {F : FTy → Type} [FloatOps F] {s : Shape} {φ : FTy} (x y : FVec F s φ) (i : s.Idx) :
    Host.divf x y i = FloatOps.hostDivf (x i) (y i) := rfl

/-- The divisor: the kernel's program counts the positives and takes the maximum with one by the same two operations
    as the reference, on the same mask. -/
theorem count_eq (x1 : (⟨Cert.ReferenceIdeal.S16384, .i32⟩ : BufTy).Contents (Elt Ideal)) (i : S_.Idx) :
    maximumf (F := Ideal) (Host.reduceAdd (F := Ideal) (Cert.ReferenceIdeal.Read.val_main_v15 (F := Ideal) x1)
        (constant S_ .f32 0x00000000#32) reducesTo_S16384_S_d0 h_S_) (constant S_ .f32 0x3F800000#32) i
      = Cert.ReferenceIdeal.Read.val_main_v35 (F := Ideal) x1 i := rfl

/-- The [1, 1] result array recast as a scalar reads its one entry: both indices are at row-major position 0. -/
theorem scalar_of_cell (o : Vec Ideal S1x1 .f32) (i : S_.Idx) :
    shapeCast S_ o shapeCasts_S1x1_S_ i = o (ix2 (0 : Fin 1) (0 : Fin 1)) :=
  shapeCast_apply o shapeCasts_S1x1_S_ i (ix2 (0 : Fin 1) (0 : Fin 1))
    (by rw [Shape.rowMajor_val_two]; show 0 * 1 + 0 = (Shape.rowMajorPi _ i).val; rw [Shape.rowMajorPi_zero])

/-- If the result array's entry is the sum of the pair terms over all pairs, and the mask the count is taken of is the
    reference's, then the program's last lines (recast, count, maximum with one, quotient) give the reference's result. -/
theorem result_of_total (x0 : (⟨Cert.ReferenceIdeal.S16384x2, .f32⟩ : BufTy).Contents (Elt Ideal))
    (x1 : (⟨Cert.ReferenceIdeal.S16384, .i32⟩ : BufTy).Contents (Elt Ideal))
    (o : Vec Ideal S1x1 .f32) (v : Vec Ideal S16384 .f32)
    (hv : v = Cert.ReferenceIdeal.Read.val_main_v15 (F := Ideal) x1)
    (ho : o (ix2 (0 : Fin 1) (0 : Fin 1)) = ∑ j : (⟨2, ![16384, 16384]⟩ : Shape).Idx,
      term (Ideal.ofBits .f32 0x3C23D70A#32) (Cert.ReferenceIdeal.RefValue.P x0) (Cert.ReferenceIdeal.RefValue.POS x1)
        (Cert.ReferenceIdeal.RefValue.NEG x1) (j 0) (j 1)) :
    Host.divf (F := Ideal) (φ := .f32) (shapeCast S_ o shapeCasts_S1x1_S_)
        (maximumf (F := Ideal) (Host.reduceAdd (F := Ideal) v (constant S_ .f32 0x00000000#32) reducesTo_S16384_S_d0 h_S_)
          (constant S_ .f32 0x3F800000#32))
      = Cert.ReferenceIdeal.Read.val_main_v36 (F := Ideal) x0 x1 := by
  subst hv
  funext i
  rw [Cert.ReferenceIdeal.RefValue.result_eq, zero_add, hostDivf_at, scalar_of_cell, count_eq, ho]

/-! ## The region's vectors are the reference's -/

theorem scoresAt_eq (c : Dev nD) :
    scoresAt m c = Cert.ReferenceIdeal.RefValue.P (m ((c.tc : Thread nD τ).loc main_arg0)) :=
  funext fun a => entry_scores m c a
theorem posAt_eq (c : Dev nD) :
    posAt m c = Cert.ReferenceIdeal.RefValue.POS (m ((c.tc : Thread nD τ).loc main_arg1)) :=
  funext fun a => entry_pos m c a
theorem negAt_eq (c : Dev nD) :
    negAt m c = Cert.ReferenceIdeal.RefValue.NEG (m ((c.tc : Thread nD τ).loc main_arg1)) :=
  funext fun a => entry_neg m c a

/-- What the last grid point leaves in the output's buffer: the sum of the pair terms over all pairs, in the
    reference's vectors. The running total after the 256 tiles is the sum over all pairs. -/
theorem total_eq (c : Dev nD) (t : Fin cfg0.N) (ht : t.val = 255) :
    (outsAt m c t.val t.isLt).1 (ix2 (0 : Fin 1) (0 : Fin 1))
      = ∑ j : (⟨2, ![16384, 16384]⟩ : Shape).Idx,
          term (Ideal.ofBits .f32 0x3C23D70A#32) (Cert.ReferenceIdeal.RefValue.P (m ((c.tc : Thread nD τ).loc main_arg0)))
            (Cert.ReferenceIdeal.RefValue.POS (m ((c.tc : Thread nD τ).loc main_arg1)))
            (Cert.ReferenceIdeal.RefValue.NEG (m ((c.tc : Thread nD τ).loc main_arg1))) (j 0) (j 1) := by
  rw [out_eq m c t ht, ht, accAt_last, scoresAt_eq, posAt_eq, negAt_eq]

/-! ## The program's result -/

/-- The result with the last grid point kept a variable. -/
theorem kernel_result_at (c : Dev nD) (t : Fin cfg0.N) (ht : t.val = 255) :
    tailV m (fun c => (dats m 0 c).arrAt 4 cfg0.N) c main_v26
      = Cert.ReferenceIdeal.Read.val_main_v36 (F := Ideal) (m ((c.tc : Thread nD τ).loc main_arg0)) (m ((c.tc : Thread nD τ).loc main_arg1)) := by
  rw [tailV_v26]
  exact result_of_total _ _ _ _ (entry_posVec m c)
    ((congrFun (out_final m c t ht) (ix2 (0 : Fin 1) (0 : Fin 1))).trans (total_eq m c t ht))

/-- THE KERNEL PROGRAM'S RESULT is the reference's: the pair sum over all pairs divided by max(number of positives, 1). -/
theorem kernel_result (c : Dev nD) :
    tailV m (fun c => (dats m 0 c).arrAt 4 cfg0.N) c main_v26
      = Cert.ReferenceIdeal.Read.val_main_v36 (F := Ideal) (m ((c.tc : Thread nD τ).loc main_arg0)) (m ((c.tc : Thread nD τ).loc main_arg1)) :=
  kernel_result_at m c ⟨255, last_lt⟩ rfl

end Cert.KernelIdeal.Region

end
-- ==== Proof.lean ====
/-
  The certificate's claim assembled. The kernel sums, over all ordered pairs (a, b) of 16384 samples, the hinge
  max(s b − s a + δ, 0) of the score difference times pos a · neg b, tile by tile on a 16 × 16 grid with a running total
  carried from point to point, and divides by max(Σ pos, 1); the reference sums all pairs at once. On the extended reals a
  finite sum may be regrouped freely, so the two totals are one number, and the scores, the masks and the divisor are
  computed by the same host operations in both programs. The three frames: each kernel program by its region's run
  (two input windows read one array, held as two half shares), the reference by its run read back. The idealization
  rewrote nothing, so that conjunct is trivial.
-/
import proofs.«103627_j80530636800492_1_alg».proof.Defs
import proofs.«103627_j80530636800492_1_alg».proof.Proof.Gen.Kernel
import proofs.«103627_j80530636800492_1_alg».proof.Proof.Gen.KernelIdeal
import proofs.«103627_j80530636800492_1_alg».proof.Proof.Gen.ReferenceIdeal
import proofs.«103627_j80530636800492_1_alg».proof.Proof.Gen.Pre_finite_inputs
import proofs.«103627_j80530636800492_1_alg».proof.Proof.Gen.ReferenceIdeal.Run
import proofs.«103627_j80530636800492_1_alg».proof.Proof.Gen.ReferenceIdeal.Read
import proofs.«103627_j80530636800492_1_alg».proof.Proof.Bits.Frame
import proofs.«103627_j80530636800492_1_alg».proof.Proof.Ideal.Frame
import proofs.«103627_j80530636800492_1_alg».proof.Proof.Ideal.KernelValue

noncomputable section

namespace Cert.Proof

open Idealize.ShloMosaic Idealize.ShloMosaic.TcCoe Idealize.SL.Sem

/-- The word-level kernel program runs to the end and leaves its arguments as they were. -/
theorem frame_kernel : Cert.frame_Kernel := fun m ρ _ => Cert.Kernel.Region.frame (F := Bits) m ρ

/-- So does the idealized one. -/
theorem frame_kernelIdeal : Cert.frame_KernelIdeal := fun m ρ _ => Cert.KernelIdeal.Region.frame (F := Ideal) m ρ

/-- The reference is host operations only: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the reference's value of the arguments in their result buffer. -/
theorem algebraic : Cert.algebraic_KernelIdeal_ReferenceIdeal := by
  intro m ρ m' ρ' _ hagree
  refine ⟨fun c => Cert.ReferenceIdeal.Read.val_main_v36 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun _ h c =>
        ⟨((h c).2 Cert.KernelIdeal.main_v26 Cert.KernelIdeal.Region.mem_restRefs_v26).trans (Cert.KernelIdeal.Region.kernel_result m c),
         ((h c).2 Cert.KernelIdeal.main_arg0 Cert.KernelIdeal.Region.mem_restRefs_arg0).trans (Cert.KernelIdeal.Region.tailV_arg0 m _ c),
         ((h c).2 Cert.KernelIdeal.main_arg1 Cert.KernelIdeal.Region.mem_restRefs_arg1).trans (Cert.KernelIdeal.Region.tailV_arg1 m _ c)⟩)
      (Cert.KernelIdeal.Region.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v36_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
